-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x128x192 : Shape := ⟨4, ![1, 2048, 128, 192]⟩
abbrev S1x2048x128x256 : Shape := ⟨4, ![1, 2048, 128, 256]⟩
abbrev S1x2048x1x64 : Shape := ⟨4, ![1, 2048, 1, 64]⟩
abbrev S2048x64 : Shape := ⟨2, ![2048, 64]⟩
abbrev S1x2048 : Shape := ⟨2, ![1, 2048]⟩
abbrev S_ : Shape := ⟨0, ![]⟩

class Facts : Prop where
  bcast_S_S1x2048x128x192 : S_.BroadcastsInDim S1x2048x128x192 (![] : Fin 0 → Fin S1x2048x128x192.rank)
  reducesTo_S1x2048x128x192_S_d0_1_2_3 : S1x2048x128x192.ReducesTo [0, 1, 2, 3] S_
  h_S_ : 0 < S_.numel
  bcast_S_S1x2048x128x256 : S_.BroadcastsInDim S1x2048x128x256 (![] : Fin 0 → Fin S1x2048x128x256.rank)
  reducesTo_S1x2048x128x256_S_d0_1_2_3 : S1x2048x128x256.ReducesTo [0, 1, 2, 3] S_
  bcast_S_S1x2048x1x64 : S_.BroadcastsInDim S1x2048x1x64 (![] : Fin 0 → Fin S1x2048x1x64.rank)
  reducesTo_S1x2048x1x64_S_d0_1_2_3 : S1x2048x1x64.ReducesTo [0, 1, 2, 3] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg4 : FVec F S2048x64 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S2048x64 .f32 := Host.absf main_arg4
  let main_cst_6 : FVec F S_ .f32 := constant S_ .f32 0x7F800000#32
  let main_v20 : FVec F S2048x64 .f32 := broadcastInDim S2048x64 ![] bcast_S_S2048x64 main_cst_6
  let main_v21 : IVec S2048x64 1 := cmpf .olt main_v19 main_v20
  let main_c_7 : IVec S_ 1 := constantI S_ 1 1#1
  let main_v22 : IVec S_ 1 := (fun x v => Host.reduce IntOp.andi x v reducesTo_S2048x64_S_d0_1 h_S_) main_v21 main_c_7
  let main_v23 : IVec S_ 1 := andi main_v18 main_v22
  main_v23

def fn {F : FTy → Type} [FloatOps F] (main_arg0 : FVec F S1x2048x128x192 .f32) (main_arg1 : FVec F S1x2048x128x256 .f32) (main_arg2 : FVec F S1x2048x1x64 .f32) (main_arg3 : FVec F S2048x64 .f32) (main_arg4 : FVec F S2048x64 .f32) (main_arg5 : IVec S1x2048 32) : IVec S_ 1 :=
  let main_v0 : FVec F S1x2048x128x192 .f32 := Host.absf main_arg0
  let main_cst : FVec F S_ .f32 := constant S_ .f32 0x7F800000#32
  let main_v1 : FVec F S1x2048x128x192 .f32 := broadcastInDim S1x2048x128x192 ![] bcast_S_S1x2048x128x192 main_cst
  let main_v2 : IVec S1x2048x128x192 1 := cmpf .olt main_v0 main_v1
  let main_c : IVec S_ 1 := constantI S_ 1 1#1
  let main_v3 : IVec S_ 1 := (fun x v => Host.reduce IntOp.andi x v reducesTo_S1x2048x128x192_S_d0_1_2_3 h_S_) main_v2 main_c
  let main_v4 : FVec F S1x2048x128x256 .f32 := Host.absf main_arg1
  let main_cst_0 : FVec F S_ .f32 := constant S_ .f32 0x7F800000#32
  let main_v5 : FVec F S1x2048x128x256 .f32 := broadcastInDim S1x2048x128x256 ![] bcast_S_S1x2048x128x256 main_cst_0
  let main_v6 : IVec S1x2048x128x256 1 := cmpf .olt main_v4 main_v5
  let main_c_1 : IVec S_ 1 := constantI S_ 1 1#1
  let main_v7 : IVec S_ 1 := (fun x v => Host.reduce IntOp.andi x v reducesTo_S1x2048x128x256_S_d0_1_2_3 h_S_) main_v6 main_c_1
  let main_v8 : IVec S_ 1 := andi main_v3 main_v7
  let main_v9 : FVec F S1x2048x1x64 .f32 := Host.absf main_arg2
  let main_cst_2 : FVec F S_ .f32 := constant S_ .f32 0x7F800000#32
  let main_v10 : FVec F S1x2048x1x64 .f32 := broadcastInDim S1x2048x1x64 ![] bcast_S_S1x2048x1x64 main_cst_2
  let main_v11 : IVec S1x2048x1x64 1 := cmpf .olt main_v9 main_v10
  let main_c_3 : IVec S_ 1 := constantI S_ 1 1#1
  let main_v12 : IVec S_ 1 := (fun x v => Host.reduce IntOp.andi x v reducesTo_S1x2048x1x64_S_d0_1_2_3 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_v13 main_v16
-- ==== Kernel.lean ====
abbrev S1x2048x128x192 : Shape := ⟨4, ![1, 2048, 128, 192]⟩
abbrev S1x2048x128x256 : Shape := ⟨4, ![1, 2048, 128, 256]⟩
abbrev S1x2048x1x64 : Shape := ⟨4, ![1, 2048, 1, 64]⟩
abbrev S2048x64 : Shape := ⟨2, ![2048, 64]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S2048x1x64 : Shape := ⟨3, ![2048, 1, 64]⟩
abbrev S2048x128x192 : Shape := ⟨3, ![2048, 128, 192]⟩
abbrev S2048x128x256 : Shape := ⟨3, ![2048, 128, 256]⟩
abbrev S32x128x192 : Shape := ⟨3, ![32, 128, 192]⟩
abbrev S32x1x64 : Shape := ⟨3, ![32, 1, 64]⟩
abbrev S32x128x128 : Shape := ⟨3, ![32, 128, 128]⟩
abbrev S32x128x64 : Shape := ⟨3, ![32, 128, 64]⟩
abbrev S32x128x32 : Shape := ⟨3, ![32, 128, 32]⟩
abbrev S2048x2x128x192 : Shape := ⟨4, ![2048, 2, 128, 192]⟩
abbrev S16x128x256 : Shape := ⟨3, ![16, 128, 256]⟩
abbrev S16x1x64 : Shape := ⟨3, ![16, 1, 64]⟩
abbrev S16x2x128x192 : Shape := ⟨4, ![16, 2, 128, 192]⟩
abbrev S16x128x128 : Shape := ⟨3, ![16, 128, 128]⟩
abbrev S16x1x32 : Shape := ⟨3, ![16, 1, 32]⟩
abbrev S16x128x64 : Shape := ⟨3, ![16, 128, 64]⟩
abbrev S16x128x192 : Shape := ⟨3, ![16, 128, 192]⟩
abbrev S16x1x128x192 : Shape := ⟨4, ![16, 1, 128, 192]⟩
abbrev S1x2048x2x128x192 : Shape := ⟨5, ![1, 2048, 2, 128, 192]⟩

abbrev nBuf : Space → Nat
  | .hbm => 34
  | .vmem => 18
  | .smem => 0
  | _ => 0

abbrev bufTy : (tb : Table) → Fin (tcTables nBuf tb) → BufTy
  | .hbm, ⟨0, _⟩ => ⟨S1x2048x128x192, .f32⟩
  | .hbm, ⟨1, _⟩ => ⟨S1x2048x128x256, .f32⟩
  | .hbm, ⟨2, _⟩ => ⟨S1x2048x1x64, .f32⟩
  | .hbm, ⟨3, _⟩ => ⟨S2048x64, .f32⟩
  | .hbm, ⟨4, _⟩ => ⟨S2048x64, .f32⟩
  | .hbm, ⟨5, _⟩ => ⟨S1x2048, .i32⟩
  | .hbm, ⟨6, _⟩ => ⟨S2048, .i32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048x1, .i32⟩
  | .hbm, ⟨15, _⟩ => ⟨S2048x64, .f32⟩
  | .hbm, ⟨16, _⟩ => ⟨S2048x1x64, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x64, .f32⟩
  | .hbm, ⟨26, _⟩ => ⟨S2048x1x64, .f32⟩
  | .hbm, ⟨27, _⟩ => ⟨S2048x128x192, .f32⟩
  | .hbm, ⟨28, _⟩ => ⟨S2048x128x256, .f32⟩
  | .hbm, ⟨29, _⟩ => ⟨S2048x1x64, .f32⟩
  | .hbm, ⟨30, _⟩ => ⟨S2048x128x192, .f32⟩
  | .hbm, ⟨31, _⟩ => ⟨S2048x2x128x192, .f32⟩
  | .hbm, ⟨32, _⟩ => ⟨S1x2048x128x192, .f32⟩
  | .hbm, ⟨33, _⟩ => ⟨S1x2048x2x128x192, .f32⟩
  | .local _ .vmem, ⟨0, _⟩ => ⟨S32x128x192, .f32⟩
  | .local _ .vmem, ⟨1, _⟩ => ⟨S32x128x192, .f32⟩
  | .local _ .vmem, ⟨2, _⟩ => ⟨S32x1x64, .f32⟩
  | .local _ .vmem, ⟨3, _⟩ => ⟨S32x1x64, .f32⟩
  | .local _ .vmem, ⟨4, _⟩ => ⟨S32x1x64, .f32⟩
  | .local _ .vmem, ⟨5, _⟩ => ⟨S32x1x64, .f32⟩
  | .local _ .vmem, ⟨6, _⟩ => ⟨S32x128x192, .f32⟩
  | .local _ .vmem, ⟨7, _⟩ => ⟨S32x128x192, .f32⟩
  | .local _ .vmem, ⟨8, _⟩ => ⟨S16x128x256, .f32⟩
  | .local _ .vmem, ⟨9, _⟩ => ⟨S16x128x256, .f32⟩
  | .local _ .vmem, ⟨10, _⟩ => ⟨S16x1x64, .f32⟩
  | .local _ .vmem, ⟨11, _⟩ => ⟨S16x1x64, .f32⟩
  | .local _ .vmem, ⟨12, _⟩ => ⟨S16x1x64, .f32⟩
  | .local _ .vmem, ⟨13, _⟩ => ⟨S16x1x64, .f32⟩
  | .local _ .vmem, ⟨14, _⟩ => ⟨S16x1x64, .f32⟩
  | .local _ .vmem, ⟨15, _⟩ => ⟨S16x1x64, .f32⟩
  | .local _ .vmem, ⟨16, _⟩ => ⟨S16x2x128x192, .f32⟩
  | .local _ .vmem, ⟨17, _⟩ => ⟨S16x2x128x192, .f32⟩
  | _, _ => ⟨S1x2048x128x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S16x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x2x128x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x2048_S2048 : S1x2048.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x64_S2048x1x64_0_2 : S2048x64.BroadcastsInDim S2048x1x64 (![0, 2] : Fin 2 → Fin S2048x1x64.rank)
  shapeCasts_S1x2048x128x192_S2048x128x192 : S1x2048x128x192.ShapeCasts S2048x128x192
  shapeCasts_S1x2048x128x256_S2048x128x256 : S1x2048x128x256.ShapeCasts S2048x128x256
  shapeCasts_S1x2048x1x64_S2048x1x64 : S1x2048x1x64.ShapeCasts S2048x1x64
  inb_S32x128x192_S32x128x192_0_0_0 : ∀ a, (![0, 0, 0] : Fin 3 → Nat) a + S32x128x192.size a ≤ S32x128x192.size a
  h_S32x128x192 : 0 < S32x128x192.numel
  shapeCasts_S32x128x192_S32x128x192 : S32x128x192.ShapeCasts S32x128x192
  inb_S32x1x64_S32x1x64_0_0_0 : ∀ a, (![0, 0, 0] : Fin 3 → Nat) a + S32x1x64.size a ≤ S32x1x64.size a
  h_S32x1x64 : 0 < S32x1x64.numel
  shapeCasts_S32x1x64_S32x1x64 : S32x1x64.ShapeCasts S32x1x64
  slices_S32x128x192_o0_0_0_S32x128x128 : S32x128x192.Slices ![0, 0, 0] S32x128x128
  slices_S32x128x192_o0_0_128_S32x128x64 : S32x128x192.Slices ![0, 0, 128] S32x128x64
  slices_S32x128x64_o0_0_32_S32x128x32 : S32x128x64.Slices ![0, 0, 32] S32x128x32
  slices_S32x128x64_o0_0_0_S32x128x32 : S32x128x64.Slices ![0, 0, 0] S32x128x32
  concatenates_S32x128x32_S32x128x32_S32x128x64_d2 : Shape.Concatenates [S32x128x32, S32x128x32] S32x128x64 2
  broadcasts_S32x1x64_S32x128x64 : S32x1x64.Broadcasts S32x128x64
  concatenates_S32x128x128_S32x128x64_S32x128x192_d2 : Shape.Concatenates [S32x128x128, S32x128x64] S32x128x192 2
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  inb_S16x1x64_S16x1x64_0_0_0 : ∀ a, (![0, 0, 0] : Fin 3 → Nat) a + S16x1x64.size a ≤ S16x1x64.size a
  h_S16x1x64 : 0 < S16x1x64.numel
  shapeCasts_S16x1x64_S16x1x64 : S16x1x64.ShapeCasts S16x1x64
  slices_S16x128x256_o0_0_0_S16x128x128 : S16x128x256.Slices ![0, 0, 0] S16x128x128
  slices_S16x128x256_o0_0_128_S16x128x128 : S16x128x256.Slices ![0, 0, 128] S16x128x128
  slices_S16x1x64_o0_0_32_S16x1x32 : S16x1x64.Slices ![0, 0, 32] S16x1x32
  slices_S16x1x64_o0_0_0_S16x1x32 : S16x1x64.Slices ![0, 0, 0] S16x1x32
  concatenates_S16x1x32_S16x1x32_S16x1x64_d2 : Shape.Concatenates [S16x1x32, S16x1x32] S16x1x64 2
  broadcasts_S16x1x64_S16x128x64 : S16x1x64.Broadcasts S16x128x64
  concatenates_S16x128x128_S16x128x64_S16x128x192_d2 : Shape.Concatenates [S16x128x128, S16x128x64] S16x128x192 2
  shapeCasts_S16x128x192_S16x1x128x192 : S16x128x192.ShapeCasts S16x1x128x192
  concatenates_S16x1x128x192_S16x1x128x192_S16x2x128x192_d1 : Shape.Concatenates [S16x1x128x192, S16x1x128x192] S16x2x128x192 1
  inb_S16x2x128x192_S16x2x128x192_0_0_0_0 : ∀ a, (![0, 0, 0, 0] : Fin 4 → Nat) a + S16x2x128x192.size a ≤ S16x2x128x192.size a
  h_S16x2x128x192 : 0 < S16x2x128x192.numel
  bcast_S2048x128x192_S1x2048x128x192_1_2_3 : S2048x128x192.BroadcastsInDim S1x2048x128x192 (![1, 2, 3] : Fin 3 → Fin S1x2048x128x192.rank)
  bcast_S2048x2x128x192_S1x2048x2x128x192_1_2_3_4 : S2048x2x128x192.BroadcastsInDim S1x2048x2x128x192 (![1, 2, 3, 4] : Fin 4 → Fin S1x2048x2x128x192.rank)
  gather_S2048x64_S2048x1_S2048x64_1_0_n_n_0_1_164_wf : GatherDims.WF S2048x64 S2048x1 S2048x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x192.size a ≤ S2048x128x192.size a
  hwx0_0 : ∀ i : grid0.Coords, EltTy.bits .f32 = 32 ∨ (Rect.block (s := S2048x128x192) S32x128x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x64.size a ≤ S2048x1x64.size a
  hwx0_1 : ∀ i : grid0.Coords, EltTy.bits .f32 = 32 ∨ (Rect.block (s := S2048x1x64) S32x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1x64.size a ≤ S2048x1x64.size a
  hwx0_2 : ∀ i : grid0.Coords, EltTy.bits .f32 = 32 ∨ (Rect.block (s := S2048x1x64) S32x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x192.size a ≤ S2048x128x192.size a
  hwx0_3 : ∀ i : grid0.Coords, EltTy.bits .f32 = 32 ∨ (Rect.block (s := S2048x128x192) S32x128x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x256.size a ≤ S2048x128x256.size a
  hwx1_0 : ∀ i : grid1.Coords, EltTy.bits .f32 = 32 ∨ (Rect.block (s := S2048x128x256) S16x128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1x64.size a ≤ S2048x1x64.size a
  hwx1_1 : ∀ i : grid1.Coords, EltTy.bits .f32 = 32 ∨ (Rect.block (s := S2048x1x64) S16x1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1x64.size a ≤ S2048x1x64.size a
  hwx1_2 : ∀ i : grid1.Coords, EltTy.bits .f32 = 32 ∨ (Rect.block (s := S2048x1x64) S16x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1x64.size a ≤ S2048x1x64.size a
  hwx1_3 : ∀ i : grid1.Coords, EltTy.bits .f32 = 32 ∨ (Rect.block (s := S2048x1x64) S16x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x2x128x192.size a ≤ S2048x2x128x192.size a
  hwx1_4 : ∀ i : grid1.Coords, EltTy.bits .f32 = 32 ∨ (Rect.block (s := S2048x2x128x192) S16x2x128x192.size (cc1_transform_4 i) (hinb1_4 i)).WholeWords (EltTy.packing .f32)

variable [Facts₀]

def gather_S2048x64_S2048x1_S2048x64_1_0_n_n_0_1_164 : GatherDims S2048x64 S2048x1 S2048x64 where
  offsetDims := [1]
  collapsedSliceDims := [0]
  operandBatchingDims := []
  startIndicesBatchingDims := []
  startIndexMap := [0]
  indexVectorDim := 1
  sliceSizes := ![1, 64]
  wf := gather_S2048x64_S2048x1_S2048x64_1_0_n_n_0_1_164_wf

abbrev win0_0 : Pipeline.Window sig grid0 :=
  Pipeline.Window.ofSpec (Memref.whole main_v17) S32x128x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x1x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S32x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S32x128x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S16x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S16x1x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S16x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S16x1x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S16x2x128x192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x2048x128x192 : Shape := ⟨4, ![1, 2048, 128, 192]⟩
abbrev S1x2048x128x256 : Shape := ⟨4, ![1, 2048, 128, 256]⟩
abbrev S1x2048x1x64 : Shape := ⟨4, ![1, 2048, 1, 64]⟩
abbrev S2048x64 : Shape := ⟨2, ![2048, 64]⟩
abbrev S1x2048 : Shape := ⟨2, ![1, 2048]⟩
abbrev S_ : Shape := ⟨0, ![]⟩
abbrev S1x2048x1 : Shape := ⟨3, ![1, 2048, 1]⟩
abbrev S1x2048x64 : Shape := ⟨3, ![1, 2048, 64]⟩
abbrev S1x2048x128x128 : Shape := ⟨4, ![1, 2048, 128, 128]⟩
abbrev S1x2048x128x64 : Shape := ⟨4, ![1, 2048, 128, 64]⟩
abbrev S1x2048x128x32 : Shape := ⟨4, ![1, 2048, 128, 32]⟩
abbrev S1x2048x1x32 : Shape := ⟨4, ![1, 2048, 1, 32]⟩
abbrev S1x2048x1x128x192 : Shape := ⟨5, ![1, 2048, 1, 128, 192]⟩
abbrev S1x2048x2x128x192 : Shape := ⟨5, ![1, 2048, 2, 128, 192]⟩

abbrev nBuf : Space → Nat
  | .hbm => 55
  | .vmem => 0
  | .smem => 0
  | _ => 0

abbrev bufTy : (tb : Table) → Fin (tcTables nBuf tb) → BufTy
  | .hbm, ⟨0, _⟩ => ⟨S1x2048x128x192, .f32⟩
  | .hbm, ⟨1, _⟩ => ⟨S1x2048x128x256, .f32⟩
  | .hbm, ⟨2, _⟩ => ⟨S1x2048x1x64, .f32⟩
  | .hbm, ⟨3, _⟩ => ⟨S2048x64, .f32⟩
  | .hbm, ⟨4, _⟩ => ⟨S2048x64, .f32⟩
  | .hbm, ⟨5, _⟩ => ⟨S1x2048, .i32⟩
  | .hbm, ⟨6, _⟩ => ⟨S_, .i32⟩
  | .hbm, ⟨7, _⟩ => ⟨S1x2048, .i32⟩
  | .hbm, ⟨8, _⟩ => ⟨S1x2048, .i1⟩
  | .hbm, ⟨9, _⟩ => ⟨S_, .i32⟩
  | .hbm, ⟨10, _⟩ => ⟨S1x2048, .i32⟩
  | .hbm, ⟨11, _⟩ => ⟨S1x2048, .i32⟩
  | .hbm, ⟨12, _⟩ => ⟨S1x2048, .i32⟩
  | .hbm, ⟨13, _⟩ => ⟨S1x2048x1, .i32⟩
  | .hbm, ⟨14, _⟩ => ⟨S1x2048x64, .f32⟩
  | .hbm, ⟨15, _⟩ => ⟨S1x2048x1x64, .f32⟩
  | .hbm, ⟨16, _⟩ => ⟨S_, .i32⟩
  | .hbm, ⟨17, _⟩ => ⟨S1x2048, .i32⟩
  | .hbm, ⟨18, _⟩ => ⟨S1x2048, .i1⟩
  | .hbm, ⟨19, _⟩ => ⟨S_, .i32⟩
  | .hbm, ⟨20, _⟩ => ⟨S1x2048, .i32⟩
  | .hbm, ⟨21, _⟩ => ⟨S1x2048, .i32⟩
  | .hbm, ⟨22, _⟩ => ⟨S1x2048, .i32⟩
  | .hbm, ⟨23, _⟩ => ⟨S1x2048x1, .i32⟩
  | .hbm, ⟨24, _⟩ => ⟨S1x2048x64, .f32⟩
  | .hbm, ⟨25, _⟩ => ⟨S1x2048x1x64, .f32⟩
  | .hbm, ⟨26, _⟩ => ⟨S1x2048x128x128, .f32⟩
  | .hbm, ⟨27, _⟩ => ⟨S1x2048x128x64, .f32⟩
  | .hbm, ⟨28, _⟩ => ⟨S1x2048x128x64, .f32⟩
  | .hbm, ⟨29, _⟩ => ⟨S1x2048x128x64, .f32⟩
  | .hbm, ⟨30, _⟩ => ⟨S1x2048x128x32, .f32⟩
  | .hbm, ⟨31, _⟩ => ⟨S1x2048x128x32, .f32⟩
  | .hbm, ⟨32, _⟩ => ⟨S1x2048x128x32, .f32⟩
  | .hbm, ⟨33, _⟩ => ⟨S1x2048x128x64, .f32⟩
  | .hbm, ⟨34, _⟩ => ⟨S1x2048x128x64, .f32⟩
  | .hbm, ⟨35, _⟩ => ⟨S1x2048x128x64, .f32⟩
  | .hbm, ⟨36, _⟩ => ⟨S1x2048x128x64, .f32⟩
  | .hbm, ⟨37, _⟩ => ⟨S1x2048x128x192, .f32⟩
  | .hbm, ⟨38, _⟩ => ⟨S1x2048x128x128, .f32⟩
  | .hbm, ⟨39, _⟩ => ⟨S1x2048x128x128, .f32⟩
  | .hbm, ⟨40, _⟩ => ⟨S1x2048x1x64, .f32⟩
  | .hbm, ⟨41, _⟩ => ⟨S1x2048x1x32, .f32⟩
  | .hbm, ⟨42, _⟩ => ⟨S1x2048x1x32, .f32⟩
  | .hbm, ⟨43, _⟩ => ⟨S1x2048x1x32, .f32⟩
  | .hbm, ⟨44, _⟩ => ⟨S1x2048x1x64, .f32⟩
  | .hbm, ⟨45, _⟩ => ⟨S1x2048x1x64, .f32⟩
  | .hbm, ⟨46, _⟩ => ⟨S1x2048x1x64, .f32⟩
  | .hbm, ⟨47, _⟩ => ⟨S1x2048x128x64, .f32⟩
  | .hbm, ⟨48, _⟩ => ⟨S1x2048x128x192, .f32⟩
  | .hbm, ⟨49, _⟩ => ⟨S_, .i32⟩
  | .hbm, ⟨50, _⟩ => ⟨S_, .f32⟩
  | .hbm, ⟨51, _⟩ => ⟨S1x2048x128x192, .f32⟩
  | .hbm, ⟨52, _⟩ => ⟨S1x2048x1x128x192, .f32⟩
  | .hbm, ⟨53, _⟩ => ⟨S1x2048x1x128x192, .f32⟩
  | .hbm, ⟨54, _⟩ => ⟨S1x2048x2x128x192, .f32⟩
  | _, _ => ⟨S1x2048x128x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_call0_v0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]

class Facts₀ : Prop where
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S1x2048x64_S1x2048x1x64_0_1_3 : S1x2048x64.BroadcastsInDim S1x2048x1x64 (![0, 1, 3] : Fin 3 → Fin S1x2048x1x64.rank)
  slices_S1x2048x128x192_S1x2048x128x128_0_0_0_0 : S1x2048x128x192.Slices ![0, 0, 0, 0] S1x2048x128x128
  slices_S1x2048x128x192_S1x2048x128x64_0_0_0_128 : S1x2048x128x192.Slices ![0, 0, 0, 128] S1x2048x128x64
  bcast_S1x2048x1x64_S1x2048x128x64_0_1_2_3 : S1x2048x1x64.BroadcastsInDim S1x2048x128x64 (![0, 1, 2, 3] : Fin 4 → Fin S1x2048x128x64.rank)
  slices_S1x2048x128x64_S1x2048x128x32_0_0_0_32 : S1x2048x128x64.Slices ![0, 0, 0, 32] S1x2048x128x32
  slices_S1x2048x128x64_S1x2048x128x32_0_0_0_0 : S1x2048x128x64.Slices ![0, 0, 0, 0] S1x2048x128x32
  concatenates_S1x2048x128x32_S1x2048x128x32_S1x2048x128x64_d3 : Shape.Concatenates [S1x2048x128x32, S1x2048x128x32] S1x2048x128x64 3
  concatenates_S1x2048x128x128_S1x2048x128x64_S1x2048x128x192_d3 : Shape.Concatenates [S1x2048x128x128, S1x2048x128x64] S1x2048x128x192 3
  slices_S1x2048x128x256_S1x2048x128x128_0_0_0_0 : S1x2048x128x256.Slices ![0, 0, 0, 0] S1x2048x128x128
  slices_S1x2048x128x256_S1x2048x128x128_0_0_0_128 : S1x2048x128x256.Slices ![0, 0, 0, 128] S1x2048x128x128
  slices_S1x2048x1x64_S1x2048x1x32_0_0_0_32 : S1x2048x1x64.Slices ![0, 0, 0, 32] S1x2048x1x32
  slices_S1x2048x1x64_S1x2048x1x32_0_0_0_0 : S1x2048x1x64.Slices ![0, 0, 0, 0] S1x2048x1x32
  concatenates_S1x2048x1x32_S1x2048x1x32_S1x2048x1x64_d3 : Shape.Concatenates [S1x2048x1x32, S1x2048x1x32] S1x2048x1x64 3
  pads_S1x2048x128x128_S1x2048x128x192_000_000_000_0640 : S1x2048x128x128.Pads (![0, 0, 0, 0] : Fin 4 → Nat) ![0, 0, 0, 64] ![0, 0, 0, 0] S1x2048x128x192
  h_S_ : 0 < S_.numel
  bcast_S1x2048x128x192_S1x2048x1x128x192_0_1_3_4 : S1x2048x128x192.BroadcastsInDim S1x2048x1x128x192 (![0, 1, 3, 4] : Fin 4 → Fin S1x2048x1x128x192.rank)
  concatenates_S1x2048x1x128x192_S1x2048x1x128x192_S1x2048x2x128x192_d2 : Shape.Concatenates [S1x2048x1x128x192, S1x2048x1x128x192] S1x2048x2x128x192 2
  gather_S2048x64_S1x2048x1_S1x2048x64_2_0_n_n_0_2_164_wf : GatherDims.WF S2048x64 S1x2048x1 S1x2048x64 [2] [0] [] [0] [] 2 ![1, 64]

variable [Facts₀]

def gather_S2048x64_S1x2048x1_S1x2048x64_2_0_n_n_0_2_164 : GatherDims S2048x64 S1x2048x1 S1x2048x64 where
  offsetDims := [2]
  collapsedSliceDims := [0]
  operandBatchingDims := []
  startIndicesBatchingDims := []
  startIndexMap := [0]
  indexVectorDim := 2
  sliceSizes := ![1, 64]
  wf := gather_S2048x64_S1x2048x1_S1x2048x64_2_0_n_n_0_2_164_wf

class Facts : Prop extends Facts₀ where

variable [Facts]
-- ==== Proof.LibLayoutIx.lean ====
import Idealize.ShloMosaic.Lib.ValueIdx
import Idealize.ShloMosaic.Lib.Pipeline.Value

/-!
Layout operations of ranks three to five read at an index written out by its coordinates.

A slice reads its operand at the coordinates shifted by the offsets; a two-piece concatenation reads its first piece
where the coordinate on the joined axis is below that piece's extent, and its second piece, the extent less, from
there on; a broadcast along a unit axis reads the operand at coordinate zero on that axis. Each statement names
the operand's index by coordinates the caller chooses and asks for their arithmetic as plain equations of naturals.
-/

namespace Idealize.ShloMosaic.LayoutIx

open Idealize.ShloMosaic Idealize.ShloMosaic.ValueIdx

variable {α : Type}

/-! ## Slices -/

/-- A rank-3 slice at `(a, b, c)` is the operand at `(o0 + a, o1 + b, o2 + c)`. -/
theorem slice_ix3 {n0 n1 n2 m0 m1 m2 o0 o1 o2 : Nat} (x : (⟨3, ![n0, n1, n2]⟩ : Shape).Idx → α)
    (h : (⟨3, ![n0, n1, n2]⟩ : Shape).Slices ![o0, o1, o2] ⟨3, ![m0, m1, m2]⟩)
    (a : Fin m0) (b : Fin m1) (c : Fin m2) (a' : Fin n0) (b' : Fin n1) (c' : Fin n2)
    (ha : a'.val = o0 + a.val) (hb : b'.val = o1 + b.val) (hc : c'.val = o2 + c.val) :
    extractStridedSlice ⟨3, ![m0, m1, m2]⟩ ![o0, o1, o2] x h (ix3 a b c) = x (ix3 a' b' c') :=
  extractStridedSlice_apply _ x h _ _ fun i => match i with
    | ⟨0, _⟩ => ha | ⟨1, _⟩ => hb | ⟨2, _⟩ => hc

/-- A rank-4 slice at `(a, b, c, d)` is the operand at the coordinates shifted by the offsets. -/
theorem slice_ix4 {n0 n1 n2 n3 m0 m1 m2 m3 o0 o1 o2 o3 : Nat} (x : (⟨4, ![n0, n1, n2, n3]⟩ : Shape).Idx → α)
    (h : (⟨4, ![n0, n1, n2, n3]⟩ : Shape).Slices ![o0, o1, o2, o3] ⟨4, ![m0, m1, m2, m3]⟩)
    (a : Fin m0) (b : Fin m1) (c : Fin m2) (d : Fin m3) (a' : Fin n0) (b' : Fin n1) (c' : Fin n2) (d' : Fin n3)
    (ha : a'.val = o0 + a.val) (hb : b'.val = o1 + b.val) (hc : c'.val = o2 + c.val) (hd : d'.val = o3 + d.val) :
    extractStridedSlice ⟨4, ![m0, m1, m2, m3]⟩ ![o0, o1, o2, o3] x h (ix4 a b c d) = x (ix4 a' b' c' d') :=
  extractStridedSlice_apply _ x h _ _ fun i => match i with
    | ⟨0, _⟩ => ha | ⟨1, _⟩ => hb | ⟨2, _⟩ => hc | ⟨3, _⟩ => hd

/-! ## Two pieces joined along the last axis of a rank-3 array -/

theorem cat_last3_left {n0 n1 k1 k2 K : Nat} (x₁ : (⟨3, ![n0, n1, k1]⟩ : Shape).Idx → α)
    (x₂ : (⟨3, ![n0, n1, k2]⟩ : Shape).Idx → α)
    (h : Shape.Concatenates [(⟨3, ![n0, n1, k1]⟩ : Shape), ⟨3, ![n0, n1, k2]⟩] ⟨3, ![n0, n1, K]⟩ 2)
    (a : Fin n0) (b : Fin n1) (c : Fin K) (c' : Fin k1) (hc : c'.val = c.val) :
    concatenate ⟨3, ![n0, n1, K]⟩ 2 [⟨_, x₁⟩, ⟨_, x₂⟩] h (ix3 a b c) = x₁ (ix3 a b c') :=
  concatenate_pair_apply_left 2 x₁ x₂ h _ rfl _ fun i => match i with
    | ⟨0, _⟩ => rfl | ⟨1, _⟩ => rfl | ⟨2, _⟩ => hc

theorem cat_last3_right {n0 n1 k1 k2 K : Nat} (x₁ : (⟨3, ![n0, n1, k1]⟩ : Shape).Idx → α)
    (x₂ : (⟨3, ![n0, n1, k2]⟩ : Shape).Idx → α)
    (h : Shape.Concatenates [(⟨3, ![n0, n1, k1]⟩ : Shape), ⟨3, ![n0, n1, k2]⟩] ⟨3, ![n0, n1, K]⟩ 2)
    (a : Fin n0) (b : Fin n1) (c : Fin K) (c' : Fin k2) (hc : c'.val + k1 = c.val) :
    concatenate ⟨3, ![n0, n1, K]⟩ 2 [⟨_, x₁⟩, ⟨_, x₂⟩] h (ix3 a b c) = x₂ (ix3 a b c') :=
  concatenate_pair_apply_right 2 x₁ x₂ h _ rfl rfl _
    (fun i hi => match i, hi with
      | ⟨0, _⟩, _ => rfl | ⟨1, _⟩, _ => rfl | ⟨2, _⟩, hi => absurd rfl hi) hc

/-! ## Two pieces joined along the last axis of a rank-4 array -/

theorem cat_last4_left {n0 n1 n2 k1 k2 K : Nat} (x₁ : (⟨4, ![n0, n1, n2, k1]⟩ : Shape).Idx → α)
    (x₂ : (⟨4, ![n0, n1, n2, k2]⟩ : Shape).Idx → α)
    (h : Shape.Concatenates [(⟨4, ![n0, n1, n2, k1]⟩ : Shape), ⟨4, ![n0, n1, n2, k2]⟩] ⟨4, ![n0, n1, n2, K]⟩ 3)
    (a : Fin n0) (b : Fin n1) (c : Fin n2) (d : Fin K) (d' : Fin k1) (hd : d'.val = d.val) :
    concatenate ⟨4, ![n0, n1, n2, K]⟩ 3 [⟨_, x₁⟩, ⟨_, x₂⟩] h (ix4 a b c d) = x₁ (ix4 a b c d') :=
  concatenate_pair_apply_left 3 x₁ x₂ h _ rfl _ fun i => match i with
    | ⟨0, _⟩ => rfl | ⟨1, _⟩ => rfl | ⟨2, _⟩ => rfl | ⟨3, _⟩ => hd

theorem cat_last4_right {n0 n1 n2 k1 k2 K : Nat} (x₁ : (⟨4, ![n0, n1, n2, k1]⟩ : Shape).Idx → α)
    (x₂ : (⟨4, ![n0, n1, n2, k2]⟩ : Shape).Idx → α)
    (h : Shape.Concatenates [(⟨4, ![n0, n1, n2, k1]⟩ : Shape), ⟨4, ![n0, n1, n2, k2]⟩] ⟨4, ![n0, n1, n2, K]⟩ 3)
    (a : Fin n0) (b : Fin n1) (c : Fin n2) (d : Fin K) (d' : Fin k2) (hd : d'.val + k1 = d.val) :
    concatenate ⟨4, ![n0, n1, n2, K]⟩ 3 [⟨_, x₁⟩, ⟨_, x₂⟩] h (ix4 a b c d) = x₂ (ix4 a b c d') :=
  concatenate_pair_apply_right 3 x₁ x₂ h _ rfl rfl _
    (fun i hi => match i, hi with
      | ⟨0, _⟩, _ => rfl | ⟨1, _⟩, _ => rfl | ⟨2, _⟩, _ => rfl | ⟨3, _⟩, hi => absurd rfl hi) hd

/-! ## Two unit slabs stacked along axis 1 of a rank-4 array -/

theorem stack1_ix4_left {n0 n2 n3 : Nat} (x₁ x₂ : (⟨4, ![n0, 1, n2, n3]⟩ : Shape).Idx → α)
    (h : Shape.Concatenates [(⟨4, ![n0, 1, n2, n3]⟩ : Shape), ⟨4, ![n0, 1, n2, n3]⟩] ⟨4, ![n0, 2, n2, n3]⟩ 1)
    (a : Fin n0) (j : Fin 2) (c : Fin n2) (d : Fin n3) (hj : j.val = 0) :
    concatenate ⟨4, ![n0, 2, n2, n3]⟩ 1 [⟨_, x₁⟩, ⟨_, x₂⟩] h (ix4 a j c d) = x₁ (ix4 a 0 c d) :=
  concatenate_pair_apply_left 1 x₁ x₂ h _ rfl _ fun i => match i with
    | ⟨0, _⟩ => rfl | ⟨1, _⟩ => hj.symm | ⟨2, _⟩ => rfl | ⟨3, _⟩ => rfl

theorem stack1_ix4_right {n0 n2 n3 : Nat} (x₁ x₂ : (⟨4, ![n0, 1, n2, n3]⟩ : Shape).Idx → α)
    (h : Shape.Concatenates [(⟨4, ![n0, 1, n2, n3]⟩ : Shape), ⟨4, ![n0, 1, n2, n3]⟩] ⟨4, ![n0, 2, n2, n3]⟩ 1)
    (a : Fin n0) (j : Fin 2) (c : Fin n2) (d : Fin n3) (hj : j.val = 1) :
    concatenate ⟨4, ![n0, 2, n2, n3]⟩ 1 [⟨_, x₁⟩, ⟨_, x₂⟩] h (ix4 a j c d) = x₂ (ix4 a 0 c d) :=
  concatenate_pair_apply_right 1 x₁ x₂ h _ rfl rfl _
    (fun i hi => match i, hi with
      | ⟨0, _⟩, _ => rfl | ⟨1, _⟩, hi => absurd rfl hi | ⟨2, _⟩, _ => rfl | ⟨3, _⟩, _ => rfl) (by show 0 + 1 = j.val; omega)

/-! ## Two unit slabs stacked along axis 2 of a rank-5 array -/

theorem stack2_ix5_left {n0 n1 n3 n4 : Nat} (x₁ x₂ : (⟨5, ![n0, n1, 1, n3, n4]⟩ : Shape).Idx → α)
    (h : Shape.Concatenates [(⟨5, ![n0, n1, 1, n3, n4]⟩ : Shape), ⟨5, ![n0, n1, 1, n3, n4]⟩] ⟨5, ![n0, n1, 2, n3, n4]⟩ 2)
    (a : Fin n0) (b : Fin n1) (j : Fin 2) (c : Fin n3) (d : Fin n4) (hj : j.val = 0) :
    concatenate ⟨5, ![n0, n1, 2, n3, n4]⟩ 2 [⟨_, x₁⟩, ⟨_, x₂⟩] h (ix5 a b j c d) = x₁ (ix5 a b 0 c d) :=
  concatenate_pair_apply_left 2 x₁ x₂ h _ rfl _ fun i => match i with
    | ⟨0, _⟩ => rfl | ⟨1, _⟩ => rfl | ⟨2, _⟩ => hj.symm | ⟨3, _⟩ => rfl | ⟨4, _⟩ => rfl

theorem stack2_ix5_right {n0 n1 n3 n4 : Nat} (x₁ x₂ : (⟨5, ![n0, n1, 1, n3, n4]⟩ : Shape).Idx → α)
    (h : Shape.Concatenates [(⟨5, ![n0, n1, 1, n3, n4]⟩ : Shape), ⟨5, ![n0, n1, 1, n3, n4]⟩] ⟨5, ![n0, n1, 2, n3, n4]⟩ 2)
    (a : Fin n0) (b : Fin n1) (j : Fin 2) (c : Fin n3) (d : Fin n4) (hj : j.val = 1) :
    concatenate ⟨5, ![n0, n1, 2, n3, n4]⟩ 2 [⟨_, x₁⟩, ⟨_, x₂⟩] h (ix5 a b j c d) = x₂ (ix5 a b 0 c d) :=
  concatenate_pair_apply_right 2 x₁ x₂ h _ rfl rfl _
    (fun i hi => match i, hi with
      | ⟨0, _⟩, _ => rfl | ⟨1, _⟩, _ => rfl | ⟨2, _⟩, hi => absurd rfl hi | ⟨3, _⟩, _ => rfl | ⟨4, _⟩, _ => rfl)
    (by show 0 + 1 = j.val; omega)

/-! ## A row vector copied along the middle axis -/

/-- A `[n0, 1, n2]` vector broadcast to `[n0, n1, n2]` reads, at `(a, b, c)`, the operand at `(a, 0, c)`. -/
theorem bcast_mid3 {n0 n1 n2 : Nat} (h0 : n0 ≠ 1) (h2 : n2 ≠ 1) (x : (⟨3, ![n0, 1, n2]⟩ : Shape).Idx → α)
    (h : (⟨3, ![n0, 1, n2]⟩ : Shape).Broadcasts ⟨3, ![n0, n1, n2]⟩) (a : Fin n0) (b : Fin n1) (c : Fin n2) :
    broadcastTo ⟨3, ![n0, n1, n2]⟩ x h (ix3 a b c) = x (ix3 a 0 c) :=
  broadcastTo_apply x h _ _ fun i => match i with
    | ⟨0, _⟩ => (if_neg h0).symm
    | ⟨1, _⟩ => (if_pos rfl).symm
    | ⟨2, _⟩ => (if_neg h2).symm

/-! ## Unit axes added or dropped by a shape cast -/

/-- A shape cast that inserts a unit axis in position 1 of a rank-3 array. -/
theorem cast_unit1_ix4 {n0 n2 n3 : Nat} (x : (⟨3, ![n0, n2, n3]⟩ : Shape).Idx → α)
    (h : (⟨3, ![n0, n2, n3]⟩ : Shape).ShapeCasts ⟨4, ![n0, 1, n2, n3]⟩) (a : Fin n0) (c : Fin n2) (d : Fin n3) :
    shapeCast ⟨4, ![n0, 1, n2, n3]⟩ x h (ix4 a 0 c d) = x (ix3 a c d) :=
  shapeCast_apply x h _ _ (by
    rw [Shape.rowMajor_val_three, Shape.rowMajor_val_four]
    show (a.val * n2 + c.val) * n3 + d.val = ((a.val * 1 + 0) * n2 + c.val) * n3 + d.val
    simp)

/-- A shape cast that drops the leading unit axis of a rank-4 array. -/
theorem cast_drop_lead4 {n1 n2 n3 : Nat} (x : (⟨4, ![1, n1, n2, n3]⟩ : Shape).Idx → α)
    (h : (⟨4, ![1, n1, n2, n3]⟩ : Shape).ShapeCasts ⟨3, ![n1, n2, n3]⟩) (a : Fin n1) (b : Fin n2) (c : Fin n3) :
    shapeCast ⟨3, ![n1, n2, n3]⟩ x h (ix3 a b c) = x (ix4 0 a b c) :=
  shapeCast_apply x h _ _ (by
    rw [Shape.rowMajor_val_three, Shape.rowMajor_val_four]
    show (((0 : Nat) * n1 + a.val) * n2 + b.val) * n3 + c.val = (a.val * n2 + b.val) * n3 + c.val
    simp)

/-- A shape cast that drops the leading unit axis of a rank-2 array. -/
theorem cast_drop_lead2 {n : Nat} (x : (⟨2, ![1, n]⟩ : Shape).Idx → α)
    (h : (⟨2, ![1, n]⟩ : Shape).ShapeCasts ⟨1, ![n]⟩) (a : Fin n) :
    shapeCast ⟨1, ![n]⟩ x h (ix1 a) = x (ix2 0 a) :=
  shapeCast_apply x h _ _ (by
    rw [Shape.rowMajor_val_one, Shape.rowMajor_val_two]
    show (0 : Nat) * n + a.val = a.val
    simp)

/-! ## A host broadcast that adds unit axes

On an axis of extent one the operand's coordinate is zero whatever the index, so no side condition is asked. -/

theorem val_eq_ite {n : Nat} (a : Fin n) : a.val = if n = 1 then 0 else a.val := by
  split
  · next h => have := a.isLt; omega
  · rfl

/-- `[n0] → [n0, 1]` along `dims = [0]`. -/
theorem bcast_col2 {n0 : Nat} (x : (⟨1, ![n0]⟩ : Shape).Idx → α)
    (h : (⟨1, ![n0]⟩ : Shape).BroadcastsInDim ⟨2, ![n0, 1]⟩ ![0]) (a : Fin n0) (z : Fin 1) :
    broadcastInDim ⟨2, ![n0, 1]⟩ ![0] h x (ix2 a z) = x (ix1 a) :=
  broadcastInDim_apply _ h x _ _ fun i => match i with
    | ⟨0, _⟩ => val_eq_ite a

/-- `[n0, n2] → [n0, 1, n2]` along `dims = [0, 2]`. -/
theorem bcast_mid_unit3 {n0 n2 : Nat} (x : (⟨2, ![n0, n2]⟩ : Shape).Idx → α)
    (h : (⟨2, ![n0, n2]⟩ : Shape).BroadcastsInDim ⟨3, ![n0, 1, n2]⟩ ![0, 2]) (a : Fin n0) (z : Fin 1) (c : Fin n2) :
    broadcastInDim ⟨3, ![n0, 1, n2]⟩ ![0, 2] h x (ix3 a z c) = x (ix2 a c) :=
  broadcastInDim_apply _ h x _ _ fun i => match i with
    | ⟨0, _⟩ => val_eq_ite a
    | ⟨1, _⟩ => val_eq_ite c

/-- `[n1, n2, n3] → [1, n1, n2, n3]` along `dims = [1, 2, 3]`. -/
theorem bcast_lead4 {n1 n2 n3 : Nat} (x : (⟨3, ![n1, n2, n3]⟩ : Shape).Idx → α)
    (h : (⟨3, ![n1, n2, n3]⟩ : Shape).BroadcastsInDim ⟨4, ![1, n1, n2, n3]⟩ ![1, 2, 3])
    (z : Fin 1) (a : Fin n1) (b : Fin n2) (c : Fin n3) :
    broadcastInDim ⟨4, ![1, n1, n2, n3]⟩ ![1, 2, 3] h x (ix4 z a b c) = x (ix3 a b c) :=
  broadcastInDim_apply _ h x _ _ fun i => match i with
    | ⟨0, _⟩ => val_eq_ite a
    | ⟨1, _⟩ => val_eq_ite b
    | ⟨2, _⟩ => val_eq_ite c

/-- `[n1, n2, n3, n4] → [1, n1, n2, n3, n4]` along `dims = [1, 2, 3, 4]`. -/
theorem bcast_lead5 {n1 n2 n3 n4 : Nat} (x : (⟨4, ![n1, n2, n3, n4]⟩ : Shape).Idx → α)
    (h : (⟨4, ![n1, n2, n3, n4]⟩ : Shape).BroadcastsInDim ⟨5, ![1, n1, n2, n3, n4]⟩ ![1, 2, 3, 4])
    (z : Fin 1) (a : Fin n1) (b : Fin n2) (c : Fin n3) (d : Fin n4) :
    broadcastInDim ⟨5, ![1, n1, n2, n3, n4]⟩ ![1, 2, 3, 4] h x (ix5 z a b c d) = x (ix4 a b c d) :=
  broadcastInDim_apply _ h x _ _ fun i => match i with
    | ⟨0, _⟩ => val_eq_ite a
    | ⟨1, _⟩ => val_eq_ite b
    | ⟨2, _⟩ => val_eq_ite c
    | ⟨3, _⟩ => val_eq_ite d

end Idealize.ShloMosaic.LayoutIx
-- ==== Proof.RopeSpec.lean ====
import Idealize.ShloMosaic.PureOps.Ideal
import Idealize.ShloMosaic.Lib.ValueIdx

/-!
Rotary position embedding of the last 64 features of each query row and of the shared key row, as functions of
the argument arrays over the extended reals.

For a 64-vector `x` and the position's table rows `c`, `s`, the rotated vector is
`x e * c e + rot x e * s e` where `rot x e = -x (e + 32)` for `e < 32` and `x (e - 32)` otherwise.
The query result keeps features 0..127 of each row and rotates features 128..191. The packed key/value result
has, in slab 0, the key: features 0..127 of the kv row followed by the rotated shared key row (the same for every
head); in slab 1, the value: features 128..255 of the kv row followed by 64 zeros.
The table rows are those of `cos` and `sin` at the row's position, a negative position counted from the end
(2048 added) and the result clamped into the table.
-/

noncomputable section

namespace Cert.Rope

open Idealize.ShloMosaic Idealize.ShloMosaic.ValueIdx

/-- The half-rotation: the upper half negated in front, the lower half behind. -/
def rotHalf (x : Fin 64 → Ideal .f32) (e : Fin 64) : Ideal .f32 :=
  if h : e.val < 32 then -(x ⟨e.val + 32, by omega⟩) else x ⟨e.val - 32, by omega⟩

/-- The rotated 64-vector. -/
def roped (x c s : Fin 64 → Ideal .f32) (e : Fin 64) : Ideal .f32 :=
  x e * c e + rotHalf x e * s e

/-- One query row of 192 features: the first 128 kept, the last 64 rotated. -/
def qRow (row : Fin 192 → Ideal .f32) (c s : Fin 64 → Ideal .f32) (d : Fin 192) : Ideal .f32 :=
  if h : d.val < 128 then row d
  else roped (fun e => row ⟨128 + e.val, by omega⟩) c s ⟨d.val - 128, by omega⟩

/-- One packed row of 192 features in slab `j`: the key (slab 0) or the zero-padded value (slab 1). -/
def kvRow (kv : Fin 256 → Ideal .f32) (kpe c s : Fin 64 → Ideal .f32) (j : Fin 2) (d : Fin 192) : Ideal .f32 :=
  if j.val = 0 then
    if h : d.val < 128 then kv ⟨d.val, by omega⟩ else roped kpe c s ⟨d.val - 128, by omega⟩
  else
    if h : d.val < 128 then kv ⟨128 + d.val, by omega⟩ else 0

/-- A position counted from the end when negative. -/
def normPos (p : BitVec 32) : BitVec 32 :=
  Scalar.select (IntOp.cmpi .slt p 0#32) (IntOp.addi p 2048#32) p

/-- The table row a position selects: the normalised position read signed and clamped into `[0, 2047]`. -/
def rowOf (p : BitVec 32) : Fin 2048 := ⟨min (normPos p).toInt.toNat 2047, by omega⟩

/-- Row `s`'s table row of `tab`. -/
def tblRow (tab : (⟨2, ![2048, 64]⟩ : Shape).Idx → Ideal .f32) (pos : (⟨2, ![1, 2048]⟩ : Shape).Idx → BitVec 32)
    (s : Fin 2048) (e : Fin 64) : Ideal .f32 :=
  tab (ix2 (rowOf (pos (ix2 0 s))) e)

/-- The query result. -/
def qOut (q : (⟨4, ![1, 2048, 128, 192]⟩ : Shape).Idx → Ideal .f32)
    (cos sin : (⟨2, ![2048, 64]⟩ : Shape).Idx → Ideal .f32) (pos : (⟨2, ![1, 2048]⟩ : Shape).Idx → BitVec 32) :
    (⟨4, ![1, 2048, 128, 192]⟩ : Shape).Idx → Ideal .f32 :=
  fun i => qRow (fun d => q (ix4 0 (i 1) (i 2) d)) (tblRow cos pos (i 1)) (tblRow sin pos (i 1)) (i 3)

/-- The packed key/value result. -/
def kvOut (kv : (⟨4, ![1, 2048, 128, 256]⟩ : Shape).Idx → Ideal .f32)
    (kpe : (⟨4, ![1, 2048, 1, 64]⟩ : Shape).Idx → Ideal .f32)
    (cos sin : (⟨2, ![2048, 64]⟩ : Shape).Idx → Ideal .f32) (pos : (⟨2, ![1, 2048]⟩ : Shape).Idx → BitVec 32) :
    (⟨5, ![1, 2048, 2, 128, 192]⟩ : Shape).Idx → Ideal .f32 :=
  fun i => kvRow (fun d => kv (ix4 0 (i 1) (i 3) d)) (fun e => kpe (ix4 0 (i 1) 0 e))
    (tblRow cos pos (i 1)) (tblRow sin pos (i 1)) (i 2) (i 4)

end Cert.Rope

end
-- ==== Proof.KHost.lean ====
import proofs.«163984_j61521111548175_1_alg».proof.Proof.Gen.KernelIdeal.Frame
import proofs.«163984_j61521111548175_1_alg».proof.Proof.LibLayoutIx
import proofs.«163984_j61521111548175_1_alg».proof.Proof.RopeSpec
import Idealize.ShloMosaic.Lib.StableHlo.Run
import Idealize.ShloMosaic.PureOps.Ideal

/-!
What the host operations before the two kernels leave in the kernels' operand arrays, as functions of the
arguments: the three reshaped arguments (the leading unit axis dropped), and the two gathered tables — for each of
the 2048 sequence rows the table row its position selects, with a unit head axis. Read at `(s, 0, e)` a gathered
table is `tblRow` of the table at row `s`.
-/

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Idealize.ShloMosaic.LayoutIx Cert.Rope

/-- The positions as a vector of 2048 words. -/
def posV (x5 : S1x2048.Idx → BitVec 32) : S2048.Idx → BitVec 32 := shapeCast S2048 x5 shapeCasts_S1x2048_S2048

/-- The positions with 2048 added to the negative ones. -/
def normV (x5 : S1x2048.Idx → BitVec 32) : S2048.Idx → BitVec 32 :=
  select (cmpi .slt (posV x5) (broadcastInDim S2048 ![] bcast_S_S2048 (constantI S_ 32 0#32)))
    (addi (posV x5) (broadcastInDim S2048 ![] bcast_S_S2048 (constantI S_ 32 2048#32))) (posV x5)

/-- The table rows the positions select, one per sequence row, with a unit head axis. -/
def rowsOf (tab : S2048x64.Idx → Ideal .f32) (x5 : S1x2048.Idx → BitVec 32) : S2048x1x64.Idx → Ideal .f32 :=
  broadcastInDim S2048x1x64 ![0, 2] bcast_S2048x64_S2048x1x64_0_2
    (Host.gather gather_S2048x64_S2048x1_S2048x64_1_0_n_n_0_1_164 tab
      (broadcastInDim S2048x1 ![0] bcast_S2048_S2048x1_0 (normV x5)))

/-- A row gather read at `(s, e)`: the table at the row the start index `idx[s, 0]` names, read signed and clamped
    into the table, and at feature `e`. -/
theorem gather_rows_apply {α : Type} (tab : S2048x64.Idx → α) (idx : IVec S2048x1 32) (s : Fin 2048) (e : Fin 64) :
    Host.gather gather_S2048x64_S2048x1_S2048x64_1_0_n_n_0_1_164 tab idx (ix2 s e)
      = tab (ix2 ⟨min (idx (ix2 s 0)).toInt.toNat 2047, by omega⟩ e) := by
  unfold Host.gather
  congr 1
  funext a
  refine Fin.ext ?_
  match a with
  | ⟨0, _⟩ =>
    show gather_S2048x64_S2048x1_S2048x64_1_0_n_n_0_1_164.start (ix2 s e) idx 0
        + gather_S2048x64_S2048x1_S2048x64_1_0_n_n_0_1_164.batchCoord (ix2 s e) 0
        + gather_S2048x64_S2048x1_S2048x64_1_0_n_n_0_1_164.offCoord (ix2 s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2048x64_S2048x1_S2048x64_1_0_n_n_0_1_164.startIndexMap from List.mem_singleton.mpr rfl)]
    have hsi : gather_S2048x64_S2048x1_S2048x64_1_0_n_n_0_1_164.siIdx (ix2 s e)
        ⟨List.idxOf (0 : Fin 2) gather_S2048x64_S2048x1_S2048x64_1_0_n_n_0_1_164.startIndexMap,
          List.idxOf_lt_length_iff.2 (List.mem_singleton.mpr rfl)⟩ = ix2 s 0 := by
      funext b; refine Fin.ext ?_
      match b with
      | ⟨0, _⟩ => rfl
      | ⟨1, _⟩ => rfl
    rw [hsi]
    rfl
  | ⟨1, _⟩ =>
    show gather_S2048x64_S2048x1_S2048x64_1_0_n_n_0_1_164.start (ix2 s e) idx 1
        + gather_S2048x64_S2048x1_S2048x64_1_0_n_n_0_1_164.batchCoord (ix2 s e) 1
        + gather_S2048x64_S2048x1_S2048x64_1_0_n_n_0_1_164.offCoord (ix2 s e) 1 = e.val
    rw [GatherDims.batchCoord_eq_zero _ _ _ List.not_mem_nil]
    unfold GatherDims.start
    rw [dif_neg (show (1 : Fin 2) ∉ gather_S2048x64_S2048x1_S2048x64_1_0_n_n_0_1_164.startIndexMap from by decide)]
    simp only [Nat.add_zero, Nat.zero_add]
    rfl

/-- The normalised position of row `s`. -/
theorem normV_apply (x5 : S1x2048.Idx → BitVec 32) (s : Fin 2048) : normV x5 (ix1 s) = normPos (x5 (ix2 0 s)) := by
  have hp : posV x5 (ix1 s) = x5 (ix2 0 s) := cast_drop_lead2 x5 _ s
  unfold normV normPos
  rw [select_apply]
  show Scalar.select (IntOp.cmpi .slt (posV x5 (ix1 s)) _) (IntOp.addi (posV x5 (ix1 s)) _) (posV x5 (ix1 s)) = _
  rw [hp]
  rfl

/-- The gathered table at `(s, 0, e)` is the table row of row `s`'s position at feature `e`. -/
theorem rowsOf_apply (tab : S2048x64.Idx → Ideal .f32) (x5 : S1x2048.Idx → BitVec 32) (s : Fin 2048) (z : Fin 1) (e : Fin 64) :
    rowsOf tab x5 (ix3 s z e) = tblRow tab x5 s e := by
  unfold rowsOf tblRow rowOf
  rw [bcast_mid_unit3 _ _ s z e, gather_rows_apply]
  have hn : broadcastInDim S2048x1 ![0] bcast_S2048_S2048x1_0 (normV x5) (ix2 s 0) = normPos (x5 (ix2 0 s)) := by
    rw [bcast_col2 _ _ s 0, normV_apply]
  simp only [hn]

end Cert.KernelIdeal.Host

end
-- ==== Proof.RopeRot.lean ====
import proofs.«163984_j61521111548175_1_alg».proof.Proof.LibLayoutIx
import proofs.«163984_j61521111548175_1_alg».proof.Proof.RopeSpec
import Idealize.ShloMosaic.PureOps.Ideal.Laws

/-!
The half-rotation as a program spells it on a rank-3 vector whose last axis has the 64 rotated features: the upper
32 features subtracted from zero, joined in front of the lower 32. Read at `(a, b, e)` it is `rotHalf` of the
row `(a, b, ·)` at `e`: on the extended reals `0 - x = -x` for every `x`, the infinities included.
-/

noncomputable section

namespace Cert.Rope

open Idealize.ShloMosaic Idealize.ShloMosaic.ValueIdx Idealize.ShloMosaic.LayoutIx

theorem rot_ix3 {n0 n1 : Nat} (y : (⟨3, ![n0, n1, 64]⟩ : Shape).Idx → Ideal .f32)
    (hs1 : (⟨3, ![n0, n1, 64]⟩ : Shape).Slices ![0, 0, 32] ⟨3, ![n0, n1, 32]⟩)
    (hs0 : (⟨3, ![n0, n1, 64]⟩ : Shape).Slices ![0, 0, 0] ⟨3, ![n0, n1, 32]⟩)
    (hc : Shape.Concatenates [(⟨3, ![n0, n1, 32]⟩ : Shape), ⟨3, ![n0, n1, 32]⟩] ⟨3, ![n0, n1, 64]⟩ 2)
    (a : Fin n0) (b : Fin n1) (e : Fin 64) :
    concatenate ⟨3, ![n0, n1, 64]⟩ 2
        [⟨⟨3, ![n0, n1, 32]⟩, subf (broadcast ⟨3, ![n0, n1, 32]⟩ (Scalar.ofBits (F := Ideal) .f32 0x00000000#32))
            (extractStridedSlice ⟨3, ![n0, n1, 32]⟩ ![0, 0, 32] y hs1)⟩,
         ⟨⟨3, ![n0, n1, 32]⟩, extractStridedSlice ⟨3, ![n0, n1, 32]⟩ ![0, 0, 0] y hs0⟩] hc (ix3 a b e)
      = rotHalf (fun e => y (ix3 a b e)) e := by
  unfold rotHalf
  by_cases he : e.val < 32
  · rw [dif_pos he]
    refine (cat_last3_left _ _ hc a b e ⟨e.val, he⟩ rfl).trans ?_
    rw [subf_apply, broadcast_apply,
      slice_ix3 y hs1 a b ⟨e.val, he⟩ a b ⟨e.val + 32, by omega⟩ (by omega) (by omega) (by show e.val + 32 = 32 + e.val; omega)]
    show Ideal.ofBits .f32 0x00000000#32 - _ = -_
    rw [Ideal.ofBits_zero_f32, zero_sub]
  · rw [dif_neg he]
    refine (cat_last3_right _ _ hc a b e ⟨e.val - 32, by omega⟩ (by show e.val - 32 + 32 = e.val; omega)).trans ?_
    exact slice_ix3 y hs0 a b ⟨e.val - 32, by omega⟩ a b ⟨e.val - 32, by omega⟩ (by omega) (by omega) (by show e.val - 32 = 0 + (e.val - 32); omega)

end Cert.Rope

end
-- ==== Proof.PayQ.lean ====
import proofs.«163984_j61521111548175_1_alg».proof.Proof.Gen.KernelIdeal.Skeleton
import proofs.«163984_j61521111548175_1_alg».proof.Proof.RopeRot

/-!
What the query kernel stores, read at one element of its 32 x 128 x 192 block: row `(p, h)` of the stored block
is `qRow` of row `(p, h)` of the loaded query block and of row `p` of the two loaded table blocks (one table row
per sequence position, shared by the 128 heads).
-/

noncomputable section

namespace Cert.KernelIdeal.PayQ

open Cert.KernelIdeal Cert.KernelIdeal.Gen Idealize.ShloMosaic Idealize.ShloMosaic.ValueIdx Idealize.ShloMosaic.LayoutIx Cert.Rope

theorem pay_q (x0 : Vec Ideal S32x128x192 .f32) (x1 x2 : Vec Ideal S32x1x64 .f32) (p : Fin 32) (h : Fin 128) (d : Fin 192) :
    k0_pay1 x0 x1 x2 (ix3 p h d)
      = qRow (fun d' => x0 (ix3 p h d')) (fun e => x1 (ix3 p 0 e)) (fun e => x2 (ix3 p 0 e)) d := by
  have e0 : shapeCast S32x128x192 x0 shapeCasts_S32x128x192_S32x128x192 = x0 := shapeCast_self _ _
  have e1 : shapeCast S32x1x64 x1 shapeCasts_S32x1x64_S32x1x64 = x1 := shapeCast_self _ _
  have e2 : shapeCast S32x1x64 x2 shapeCasts_S32x1x64_S32x1x64 = x2 := shapeCast_self _ _
  have hrow : ∀ e : Fin 64, extractStridedSlice S32x128x64 ![0, 0, 128] x0 slices_S32x128x192_o0_0_128_S32x128x64 (ix3 p h e)
      = x0 (ix3 p h ⟨128 + e.val, by omega⟩) := fun e =>
    slice_ix3 x0 _ p h e p h ⟨128 + e.val, by omega⟩ (by omega) (by omega) rfl
  unfold k0_pay1
  rw [e0, e1, e2]
  unfold qRow
  by_cases hd : d.val < 128
  · rw [dif_pos hd]
    refine (cat_last3_left _ _ _ p h d ⟨d.val, hd⟩ rfl).trans ?_
    exact slice_ix3 x0 _ p h ⟨d.val, hd⟩ p h d (by omega) (by omega) (by show d.val = 0 + d.val; omega)
  · rw [dif_neg hd]
    refine (cat_last3_right _ _ _ p h d ⟨d.val - 128, by omega⟩ (by show d.val - 128 + 128 = d.val; omega)).trans ?_
    rw [addf_apply, mulf_apply, mulf_apply]
    unfold roped
    rw [rot_ix3 _ _ _ _ p h, bcast_mid3 (by decide) (by decide) x1 _ p h, bcast_mid3 (by decide) (by decide) x2 _ p h, hrow]
    simp only [hrow]

end Cert.KernelIdeal.PayQ

end
-- ==== Proof.KFinalQ.lean ====
import proofs.«163984_j61521111548175_1_alg».proof.Proof.Gen.KernelIdeal.Frame
import proofs.«163984_j61521111548175_1_alg».proof.Proof.PayQ
import Idealize.ShloMosaic.Lib.Pipeline.Value

/-!
The query kernel's output array after its region, as one function of the three operand arrays the region finds:
each of the 64 grid points writes rows `32 t .. 32 t + 31`, and row `r` is written by point `r / 32`.
-/

noncomputable section

namespace Cert.KernelIdeal.FinalQ

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.LayoutIx Cert.Rope

variable (V : (c : Dev nD) → (b : Ref sig .tc) → Buf (Elt Ideal) ((c : Thread nD τ).loc b))

/-- The query kernel's whole output as one function of its three operand arrays. -/
def Q0 (A : S2048x128x192.Idx → Ideal .f32) (C S : S2048x1x64.Idx → Ideal .f32) : S2048x128x192.Idx → Ideal .f32 :=
  fun i => qRow (fun d => A (ix3 (i 0) (i 1) d)) (fun e => C (ix3 (i 0) 0 e)) (fun e => S (ix3 (i 0) 0 e)) (i 2)

theorem hz3 : (![0, 0, 0] : Fin 3 → Nat) = fun _ => 0 := funext fun a => by fin_cases a <;> rfl

theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Where element `(p, h, d)` of point `t`'s output block sits in the output array: row `32 t + p`. -/
theorem emb_out0 (t : Fin cfg0.N) (p : Fin 32) (h : Fin 128) (d : Fin 192) :
    ((cfg0.win 3).blk t).view.emb (ix3 p h d)
      = (ix3 ⟨t.val * 32 + p.val, by have := t.isLt; have : t.val < 64 := this; omega⟩ h d : S2048x128x192.Idx) := by
  obtain ⟨-, -, -, -, -, -, -, -, -, e0, e1, e2⟩ := idx_facts0 t
  funext a; apply Fin.ext
  match a with
  | ⟨0, _⟩ => show win0_3.index t (0 : Fin 3) * 32 + 1 * p.val = t.val * 32 + p.val; rw [e0]; omega
  | ⟨1, _⟩ => show win0_3.index t (1 : Fin 3) * 128 + 1 * h.val = h.val; rw [e1]; omega
  | ⟨2, _⟩ => show win0_3.index t (2 : Fin 3) * 192 + 1 * d.val = d.val; rw [e2]; omega

/-- Point `t`'s query block is rows `32 t .. 32 t + 31` of the query array. -/
theorem blk0_read (c : Dev nD) (t : Fin cfg0.N) (p : Fin 32) (h : Fin 128) (d : Fin 192) :
    iblk0 V c 0 t (ix3 p h d)
      = V c main_v17 (ix3 ⟨t.val * 32 + p.val, by have := t.isLt; have : t.val < 64 := this; omega⟩ h d) := by
  obtain ⟨e0, e1, e2, -⟩ := idx_facts0 t
  show V c main_v17 (((cfg0.win 0).blk t).view.emb (ix3 p h d)) = _
  refine congrArg _ (funext fun a => Fin.ext ?_)
  match a with
  | ⟨0, _⟩ => show win0_0.index t (0 : Fin 3) * 32 + 1 * p.val = t.val * 32 + p.val; rw [e0]; omega
  | ⟨1, _⟩ => show win0_0.index t (1 : Fin 3) * 128 + 1 * h.val = h.val; rw [e1]; omega
  | ⟨2, _⟩ => show win0_0.index t (2 : Fin 3) * 192 + 1 * d.val = d.val; rw [e2]; omega

/-- Point `t`'s first table block is rows `32 t .. 32 t + 31` of the gathered cosine rows. -/
theorem blk1_read (c : Dev nD) (t : Fin cfg0.N) (p : Fin 32) (z : Fin 1) (e : Fin 64) :
    iblk0 V c 1 t (ix3 p z e)
      = V c main_v8 (ix3 ⟨t.val * 32 + p.val, by have := t.isLt; have : t.val < 64 := this; omega⟩ z e) := by
  obtain ⟨-, -, -, e0, e1, e2, -⟩ := idx_facts0 t
  show V c main_v8 (((cfg0.win 1).blk t).view.emb (ix3 p z e)) = _
  refine congrArg _ (funext fun a => Fin.ext ?_)
  match a with
  | ⟨0, _⟩ => show win0_1.index t (0 : Fin 3) * 32 + 1 * p.val = t.val * 32 + p.val; rw [e0]; omega
  | ⟨1, _⟩ => show win0_1.index t (1 : Fin 3) * 1 + 1 * z.val = z.val; rw [e1]; omega
  | ⟨2, _⟩ => show win0_1.index t (2 : Fin 3) * 64 + 1 * e.val = e.val; rw [e2]; omega

/-- Point `t`'s second table block is rows `32 t .. 32 t + 31` of the gathered sine rows. -/
theorem blk2_read (c : Dev nD) (t : Fin cfg0.N) (p : Fin 32) (z : Fin 1) (e : Fin 64) :
    iblk0 V c 2 t (ix3 p z e)
      = V c main_v16 (ix3 ⟨t.val * 32 + p.val, by have := t.isLt; have : t.val < 64 := this; omega⟩ z e) := by
  obtain ⟨-, -, -, -, -, -, e0, e1, e2, -⟩ := idx_facts0 t
  show V c main_v16 (((cfg0.win 2).blk t).view.emb (ix3 p z e)) = _
  refine congrArg _ (funext fun a => Fin.ext ?_)
  match a with
  | ⟨0, _⟩ => show win0_2.index t (0 : Fin 3) * 32 + 1 * p.val = t.val * 32 + p.val; rw [e0]; omega
  | ⟨1, _⟩ => show win0_2.index t (1 : Fin 3) * 1 + 1 * z.val = z.val; rw [e1]; omega
  | ⟨2, _⟩ => show win0_2.index t (2 : Fin 3) * 64 + 1 * e.val = e.val; rw [e2]; omega

/-- What point `t` writes back is block `t` of `Q0` of the operand arrays as the region finds them. -/
theorem flushed0_eq (c : Dev nD) (t : Fin cfg0.N) :
    (dat0 V c).flushed 3 t
      = ((cfg0.win 3).blk t).view.read (Elt Ideal) (Q0 (V c main_v17) (V c main_v8) (V c main_v16)) := by
  show (cfg0.win 3).cut (grid0.coords t) ((dat0 V c).after 3 t) = _
  rw [after0_3]
  unfold out0_3
  rw [View.canon_unit_zero hz3]
  simp only [View.ld_unit_zero (S := S32x128x192) hz3, View.ld_unit_zero (S := S32x1x64) hz3]
  funext j
  show k0_pay1 (iblk0 V c 0 t) (iblk0 V c 1 t) (iblk0 V c 2 t) j
    = Q0 (V c main_v17) (V c main_v8) (V c main_v16) (((cfg0.win 3).blk t).view.emb j)
  obtain ⟨p, h, d, rfl⟩ : ∃ (p : Fin 32) (h : Fin 128) (d : Fin 192), j = ix3 p h d := ⟨j 0, j 1, j 2, eq_ix3 j⟩
  rw [emb_out0 t p h d]
  refine (PayQ.pay_q _ _ _ p h d).trans ?_
  simp only [blk0_read V c t, blk1_read V c t, blk2_read V c t]
  rfl

/-- An index of the output array is in point `t`'s block iff each coordinate is in the block's range on its axis. -/
theorem mem_blk0 (t : Fin cfg0.N) (i : S2048x128x192.Idx) :
    i ∈ ((cfg0.win 3).blk t).view.set ↔ ∀ a : Fin 3, win0_3.index t a * S32x128x192.size a ≤ (i a).val
      ∧ (i a).val < win0_3.index t a * S32x128x192.size a + S32x128x192.size a := by
  show i ∈ ((View.whole main_v20).slice (win0_3.rect t)).set ↔ _
  rw [View.set_slice_whole, Rect.mem_set_unit]
  exact Iff.rfl

/-- Row `r` of the output array is written by point `r / 32`: the 64 blocks of 32 rows tile the 2048 rows. -/
theorem cover0 (i : S2048x128x192.Idx) :
    ∃ t : Fin cfg0.N, (cfg0.win 3).flush t = true ∧ i ∈ ((cfg0.win 3).blk t).view.set := by
  have hi0 : (i 0).val < 2048 := (i 0).isLt
  have hi1 : (i 1).val < 128 := (i 1).isLt
  have hi2 : (i 2).val < 192 := (i 2).isLt
  have ht : (i 0).val / 32 < 64 := by omega
  refine ⟨⟨(i 0).val / 32, ht⟩, flush0_3 _, ?_⟩
  rw [mem_blk0]
  obtain ⟨-, -, -, -, -, -, -, -, -, e0, e1, e2⟩ := idx_facts0 ⟨(i 0).val / 32, ht⟩
  intro a
  match a with
  | ⟨0, _⟩ =>
    show win0_3.index ⟨(i 0).val / 32, ht⟩ (0 : Fin 3) * 32 ≤ (i 0).val
      ∧ (i 0).val < win0_3.index ⟨(i 0).val / 32, ht⟩ (0 : Fin 3) * 32 + 32
    rw [e0]; show (i 0).val / 32 * 32 ≤ (i 0).val ∧ (i 0).val < (i 0).val / 32 * 32 + 32; omega
  | ⟨1, _⟩ =>
    show win0_3.index ⟨(i 0).val / 32, ht⟩ (1 : Fin 3) * 128 ≤ (i 1).val
      ∧ (i 1).val < win0_3.index ⟨(i 0).val / 32, ht⟩ (1 : Fin 3) * 128 + 128
    rw [e1]; omega
  | ⟨2, _⟩ =>
    show win0_3.index ⟨(i 0).val / 32, ht⟩ (2 : Fin 3) * 192 ≤ (i 2).val
      ∧ (i 2).val < win0_3.index ⟨(i 0).val / 32, ht⟩ (2 : Fin 3) * 192 + 192
    rw [e2]; omega

/-- After the region the query kernel's output array is `Q0` of its operand arrays as the region finds them. -/
theorem final0 (c : Dev nD) :
    (dat0 V c).arrAt 3 cfg0.N = Q0 (V c main_v17) (V c main_v8) (V c main_v16) :=
  (dat0 V c).arrAt_eq_of_cover 3 _ (fun t _ => flushed0_eq V c t) cover0

end Cert.KernelIdeal.FinalQ

end
-- ==== Proof.PayKV.lean ====
import proofs.«163984_j61521111548175_1_alg».proof.Proof.Gen.KernelIdeal.Skeleton
import proofs.«163984_j61521111548175_1_alg».proof.Proof.RopeRot

/-!
What the key/value kernel stores, read at one element of its 16 x 2 x 128 x 192 block: row `(p, j, h)` of the
stored block is `kvRow` in slab `j` of row `(p, h)` of the loaded kv block and of row `p` of the loaded shared
key block and of the two loaded table blocks. The rotated shared key is computed once per sequence position and
copied to the 128 heads; the value's padding is the zero constant.
-/

noncomputable section

namespace Cert.KernelIdeal.PayKV

open Cert.KernelIdeal Cert.KernelIdeal.Gen Idealize.ShloMosaic Idealize.ShloMosaic.ValueIdx Idealize.ShloMosaic.LayoutIx Cert.Rope

theorem pay_kv (x0 : Vec Ideal S16x128x256 .f32) (x1 x2 x3 : Vec Ideal S16x1x64 .f32)
    (p : Fin 16) (j : Fin 2) (h : Fin 128) (d : Fin 192) :
    k1_pay1 x0 x1 x2 x3 (ix4 p j h d)
      = kvRow (fun d' => x0 (ix3 p h d')) (fun e => x1 (ix3 p 0 e)) (fun e => x2 (ix3 p 0 e)) (fun e => x3 (ix3 p 0 e)) j d := by
  have e0 : shapeCast S16x128x256 x0 shapeCasts_S16x128x256_S16x128x256 = x0 := shapeCast_self _ _
  have e1 : shapeCast S16x1x64 x1 shapeCasts_S16x1x64_S16x1x64 = x1 := shapeCast_self _ _
  have e2 : shapeCast S16x1x64 x2 shapeCasts_S16x1x64_S16x1x64 = x2 := shapeCast_self _ _
  have e3 : shapeCast S16x1x64 x3 shapeCasts_S16x1x64_S16x1x64 = x3 := shapeCast_self _ _
  unfold k1_pay1
  rw [e0, e1, e2, e3]
  unfold kvRow
  by_cases hj : j.val = 0
  · rw [if_pos hj]
    have hj0 : j = 0 := Fin.ext hj
    subst hj0
    refine (stack1_ix4_left _ _ _ p 0 h d rfl).trans ?_
    refine (cast_unit1_ix4 _ _ p h d).trans ?_
    by_cases hd : d.val < 128
    · rw [dif_pos hd]
      refine (cat_last3_left _ _ _ p h d ⟨d.val, hd⟩ rfl).trans ?_
      exact slice_ix3 x0 _ p h ⟨d.val, hd⟩ p h ⟨d.val, by omega⟩ (by omega) (by omega) (by show d.val = 0 + d.val; omega)
    · rw [dif_neg hd]
      refine (cat_last3_right _ _ _ p h d ⟨d.val - 128, by omega⟩ (by show d.val - 128 + 128 = d.val; omega)).trans ?_
      rw [bcast_mid3 (by decide) (by decide) _ _ p h, shapeCast_self, addf_apply, mulf_apply, mulf_apply]
      unfold roped
      rw [rot_ix3 x1 _ _ _ p 0]
  · rw [if_neg hj]
    have hj1 : j.val = 1 := by have := j.isLt; omega
    refine (stack1_ix4_right _ _ _ p j h d hj1).trans ?_
    refine (cast_unit1_ix4 _ _ p h d).trans ?_
    by_cases hd : d.val < 128
    · rw [dif_pos hd]
      refine (cat_last3_left _ _ _ p h d ⟨d.val, hd⟩ rfl).trans ?_
      exact slice_ix3 x0 _ p h ⟨d.val, hd⟩ p h ⟨128 + d.val, by omega⟩ (by omega) (by omega) rfl
    · rw [dif_neg hd]
      refine (cat_last3_right _ _ _ p h d ⟨d.val - 128, by omega⟩ (by show d.val - 128 + 128 = d.val; omega)).trans ?_
      rw [broadcast_apply]
      exact Ideal.ofBits_zero_f32

end Cert.KernelIdeal.PayKV

end
-- ==== Proof.KFinalKV.lean ====
import proofs.«163984_j61521111548175_1_alg».proof.Proof.Gen.KernelIdeal.Frame
import proofs.«163984_j61521111548175_1_alg».proof.Proof.PayKV
import Idealize.ShloMosaic.Lib.Pipeline.Value

/-!
The key/value kernel's output array after its region, as one function of the four operand arrays the region finds:
each of the 128 grid points writes rows `16 t .. 16 t + 15`, both slabs, and row `r` is written by point `r / 16`.
-/

noncomputable section

namespace Cert.KernelIdeal.FinalKV

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.LayoutIx Cert.Rope

variable (V : (c : Dev nD) → (b : Ref sig .tc) → Buf (Elt Ideal) ((c : Thread nD τ).loc b))

/-- The key/value kernel's whole output as one function of its four operand arrays. -/
def KV1 (B : S2048x128x256.Idx → Ideal .f32) (Kp C S : S2048x1x64.Idx → Ideal .f32) : S2048x2x128x192.Idx → Ideal .f32 :=
  fun i => kvRow (fun d => B (ix3 (i 0) (i 2) d)) (fun e => Kp (ix3 (i 0) 0 e)) (fun e => C (ix3 (i 0) 0 e))
    (fun e => S (ix3 (i 0) 0 e)) (i 1) (i 3)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the grid: every window's block index is the point's number on the row axis
    and zero elsewhere. -/
theorem idx_facts1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 4) = t.val ∧ win1_4.index t (1 : Fin 4) = 0 ∧ win1_4.index t (2 : Fin 4) = 0
        ∧ win1_4.index t (3 : Fin 4) = 0) :=
  (by decide +kernel : ∀ t : Fin grid1.N, _)

/-- Where element `(p, j, h, d)` of point `t`'s output block sits in the output array: row `16 t + p`. -/
theorem emb_out1 (t : Fin cfg1.N) (p : Fin 16) (j : Fin 2) (h : Fin 128) (d : Fin 192) :
    ((cfg1.win 4).blk t).view.emb (ix4 p j h d)
      = (ix4 ⟨t.val * 16 + p.val, by have := t.isLt; have : t.val < 128 := this; omega⟩ j h d : S2048x2x128x192.Idx) := by
  obtain ⟨e0, e1, e2, e3⟩ := (idx_facts1 t).2.2.2.2
  funext a; apply Fin.ext
  match a with
  | ⟨0, _⟩ => show win1_4.index t (0 : Fin 4) * 16 + 1 * p.val = t.val * 16 + p.val; rw [e0]; omega
  | ⟨1, _⟩ => show win1_4.index t (1 : Fin 4) * 2 + 1 * j.val = j.val; rw [e1]; omega
  | ⟨2, _⟩ => show win1_4.index t (2 : Fin 4) * 128 + 1 * h.val = h.val; rw [e2]; omega
  | ⟨3, _⟩ => show win1_4.index t (3 : Fin 4) * 192 + 1 * d.val = d.val; rw [e3]; omega

/-- Point `t`'s kv block is rows `16 t .. 16 t + 15` of the kv array. -/
theorem blk0_read (c : Dev nD) (t : Fin cfg1.N) (p : Fin 16) (h : Fin 128) (d : Fin 256) :
    iblk1 V c 0 t (ix3 p h d)
      = V c main_v18 (ix3 ⟨t.val * 16 + p.val, by have := t.isLt; have : t.val < 128 := this; omega⟩ h d) := by
  obtain ⟨e0, e1, e2⟩ := (idx_facts1 t).1
  show V c main_v18 (((cfg1.win 0).blk t).view.emb (ix3 p h d)) = _
  refine congrArg _ (funext fun a => Fin.ext ?_)
  match a with
  | ⟨0, _⟩ => show win1_0.index t (0 : Fin 3) * 16 + 1 * p.val = t.val * 16 + p.val; rw [e0]; omega
  | ⟨1, _⟩ => show win1_0.index t (1 : Fin 3) * 128 + 1 * h.val = h.val; rw [e1]; omega
  | ⟨2, _⟩ => show win1_0.index t (2 : Fin 3) * 256 + 1 * d.val = d.val; rw [e2]; omega

/-- Point `t`'s shared key block is rows `16 t .. 16 t + 15` of its array. -/
theorem blk1_read (c : Dev nD) (t : Fin cfg1.N) (p : Fin 16) (z : Fin 1) (e : Fin 64) :
    iblk1 V c 1 t (ix3 p z e)
      = V c main_v19 (ix3 ⟨t.val * 16 + p.val, by have := t.isLt; have : t.val < 128 := this; omega⟩ z e) := by
  obtain ⟨e0, e1, e2⟩ := (idx_facts1 t).2.1
  show V c main_v19 (((cfg1.win 1).blk t).view.emb (ix3 p z e)) = _
  refine congrArg _ (funext fun a => Fin.ext ?_)
  match a with
  | ⟨0, _⟩ => show win1_1.index t (0 : Fin 3) * 16 + 1 * p.val = t.val * 16 + p.val; rw [e0]; omega
  | ⟨1, _⟩ => show win1_1.index t (1 : Fin 3) * 1 + 1 * z.val = z.val; rw [e1]; omega
  | ⟨2, _⟩ => show win1_1.index t (2 : Fin 3) * 64 + 1 * e.val = e.val; rw [e2]; omega

/-- Point `t`'s first table block is rows `16 t .. 16 t + 15` of its array. -/
theorem blk2_read (c : Dev nD) (t : Fin cfg1.N) (p : Fin 16) (z : Fin 1) (e : Fin 64) :
    iblk1 V c 2 t (ix3 p z e)
      = V c main_v8 (ix3 ⟨t.val * 16 + p.val, by have := t.isLt; have : t.val < 128 := this; omega⟩ z e) := by
  obtain ⟨e0, e1, e2⟩ := (idx_facts1 t).2.2.1
  show V c main_v8 (((cfg1.win 2).blk t).view.emb (ix3 p z e)) = _
  refine congrArg _ (funext fun a => Fin.ext ?_)
  match a with
  | ⟨0, _⟩ => show win1_2.index t (0 : Fin 3) * 16 + 1 * p.val = t.val * 16 + p.val; rw [e0]; omega
  | ⟨1, _⟩ => show win1_2.index t (1 : Fin 3) * 1 + 1 * z.val = z.val; rw [e1]; omega
  | ⟨2, _⟩ => show win1_2.index t (2 : Fin 3) * 64 + 1 * e.val = e.val; rw [e2]; omega

/-- Point `t`'s second table block is rows `16 t .. 16 t + 15` of its array. -/
theorem blk3_read (c : Dev nD) (t : Fin cfg1.N) (p : Fin 16) (z : Fin 1) (e : Fin 64) :
    iblk1 V c 3 t (ix3 p z e)
      = V c main_v16 (ix3 ⟨t.val * 16 + p.val, by have := t.isLt; have : t.val < 128 := this; omega⟩ z e) := by
  obtain ⟨e0, e1, e2⟩ := (idx_facts1 t).2.2.2.1
  show V c main_v16 (((cfg1.win 3).blk t).view.emb (ix3 p z e)) = _
  refine congrArg _ (funext fun a => Fin.ext ?_)
  match a with
  | ⟨0, _⟩ => show win1_3.index t (0 : Fin 3) * 16 + 1 * p.val = t.val * 16 + p.val; rw [e0]; omega
  | ⟨1, _⟩ => show win1_3.index t (1 : Fin 3) * 1 + 1 * z.val = z.val; rw [e1]; omega
  | ⟨2, _⟩ => show win1_3.index t (2 : Fin 3) * 64 + 1 * e.val = e.val; rw [e2]; omega

/-- What point `t` writes back is block `t` of `KV1` of the operand arrays as the region finds them. -/
theorem flushed1_eq (c : Dev nD) (t : Fin cfg1.N) :
    (dat1 V c).flushed 4 t
      = ((cfg1.win 4).blk t).view.read (Elt Ideal) (KV1 (V c main_v18) (V c main_v19) (V c main_v8) (V c main_v16)) := by
  show (cfg1.win 4).cut (grid1.coords t) ((dat1 V c).after 4 t) = _
  rw [after1_4]
  unfold out1_4
  rw [View.canon_unit_zero hz4]
  simp only [View.ld_unit_zero (S := S16x128x256) hz3, View.ld_unit_zero (S := S16x1x64) hz3]
  funext y
  show k1_pay1 (iblk1 V c 0 t) (iblk1 V c 1 t) (iblk1 V c 2 t) (iblk1 V c 3 t) y
    = KV1 (V c main_v18) (V c main_v19) (V c main_v8) (V c main_v16) (((cfg1.win 4).blk t).view.emb y)
  obtain ⟨p, j, h, d, rfl⟩ : ∃ (p : Fin 16) (j : Fin 2) (h : Fin 128) (d : Fin 192), y = ix4 p j h d :=
    ⟨y 0, y 1, y 2, y 3, eq_ix4 y⟩
  rw [emb_out1 t p j h d]
  refine (PayKV.pay_kv _ _ _ _ p j h d).trans ?_
  simp only [blk0_read V c t, blk1_read V c t, blk2_read V c t, blk3_read V c t]
  rfl

/-- An index of the output array is in point `t`'s block iff each coordinate is in the block's range on its axis. -/
theorem mem_blk1 (t : Fin cfg1.N) (i : S2048x2x128x192.Idx) :
    i ∈ ((cfg1.win 4).blk t).view.set ↔ ∀ a : Fin 4, win1_4.index t a * S16x2x128x192.size a ≤ (i a).val
      ∧ (i a).val < win1_4.index t a * S16x2x128x192.size a + S16x2x128x192.size a := by
  show i ∈ ((View.whole main_v21).slice (win1_4.rect t)).set ↔ _
  rw [View.set_slice_whole, Rect.mem_set_unit]
  exact Iff.rfl

/-- Row `r` of the output array is written by point `r / 16`: the 128 blocks of 16 rows tile the 2048 rows. -/
theorem cover1 (i : S2048x2x128x192.Idx) :
    ∃ t : Fin cfg1.N, (cfg1.win 4).flush t = true ∧ i ∈ ((cfg1.win 4).blk t).view.set := by
  have hi0 : (i 0).val < 2048 := (i 0).isLt
  have hi1 : (i 1).val < 2 := (i 1).isLt
  have hi2 : (i 2).val < 128 := (i 2).isLt
  have hi3 : (i 3).val < 192 := (i 3).isLt
  have ht : (i 0).val / 16 < 128 := by omega
  refine ⟨⟨(i 0).val / 16, ht⟩, flush1_4 _, ?_⟩
  rw [mem_blk1]
  obtain ⟨e0, e1, e2, e3⟩ := (idx_facts1 ⟨(i 0).val / 16, ht⟩).2.2.2.2
  intro a
  match a with
  | ⟨0, _⟩ =>
    show win1_4.index ⟨(i 0).val / 16, ht⟩ (0 : Fin 4) * 16 ≤ (i 0).val
      ∧ (i 0).val < win1_4.index ⟨(i 0).val / 16, ht⟩ (0 : Fin 4) * 16 + 16
    rw [e0]; show (i 0).val / 16 * 16 ≤ (i 0).val ∧ (i 0).val < (i 0).val / 16 * 16 + 16; omega
  | ⟨1, _⟩ =>
    show win1_4.index ⟨(i 0).val / 16, ht⟩ (1 : Fin 4) * 2 ≤ (i 1).val
      ∧ (i 1).val < win1_4.index ⟨(i 0).val / 16, ht⟩ (1 : Fin 4) * 2 + 2
    rw [e1]; omega
  | ⟨2, _⟩ =>
    show win1_4.index ⟨(i 0).val / 16, ht⟩ (2 : Fin 4) * 128 ≤ (i 2).val
      ∧ (i 2).val < win1_4.index ⟨(i 0).val / 16, ht⟩ (2 : Fin 4) * 128 + 128
    rw [e2]; omega
  | ⟨3, _⟩ =>
    show win1_4.index ⟨(i 0).val / 16, ht⟩ (3 : Fin 4) * 192 ≤ (i 3).val
      ∧ (i 3).val < win1_4.index ⟨(i 0).val / 16, ht⟩ (3 : Fin 4) * 192 + 192
    rw [e3]; omega

/-- After the region the key/value kernel's output array is `KV1` of its operand arrays as the region finds them. -/
theorem final1 (c : Dev nD) :
    (dat1 V c).arrAt 4 cfg1.N = KV1 (V c main_v18) (V c main_v19) (V c main_v8) (V c main_v16) :=
  (dat1 V c).arrAt_eq_of_cover 4 _ (fun t _ => flushed1_eq V c t) cover1

end Cert.KernelIdeal.FinalKV

end
-- ==== Proof.KValue.lean ====
import proofs.«163984_j61521111548175_1_alg».proof.Proof.KRun
import proofs.«163984_j61521111548175_1_alg».proof.Proof.KHost
import proofs.«163984_j61521111548175_1_alg».proof.Proof.KFinalQ
import proofs.«163984_j61521111548175_1_alg».proof.Proof.KFinalKV

/-!
The idealized kernel program's two results as functions of its arguments.

The last boundary's contents at a result buffer is the host's leading-unit-axis broadcast of what the result's kernel
leaves in its output array; that array is the kernel's whole-output function of its operand arrays at the region's
entry; the second region finds the two gathered tables as the first one found them (the first region only reads
them) and the reshaped arguments as the host wrote them. Read at an index, every layer is a change of coordinates,
and the two results are `qOut` and `kvOut` of the arguments.
-/

noncomputable section

namespace Cert.KernelIdeal.Value

open Cert.KernelIdeal Cert.KernelIdeal.Gen Idealize.ShloMosaic Idealize.ShloMosaic.TcCoe Idealize.SL.Sem Idealize.ShloMosaic.StableHlo
open Idealize.ShloMosaic.ValueIdx Idealize.ShloMosaic.LayoutIx Cert.Rope
open Cert.KernelIdeal.Host Cert.KernelIdeal.FinalQ Cert.KernelIdeal.FinalKV

variable (m : (ℓ : Loc nD τ sig) → Buf (Elt Ideal) ℓ) (ρ : Dev nD → PrngReg)

/-! ## The first region's operand arrays -/

theorem V1_v17 (c : Dev nD) : (V1 m ρ c main_v17 : S2048x128x192.Idx → Ideal .f32)
    = shapeCast S2048x128x192 (m ((c : Thread nD τ).loc main_arg0)) shapeCasts_S1x2048x128x192_S2048x128x192 := by
  show StableHlo.after hostOps0 (W0 m ρ c) (Proc.devRef .tc main_v17) = _
  after_results
  rfl

theorem V1_v18 (c : Dev nD) : (V1 m ρ c main_v18 : S2048x128x256.Idx → Ideal .f32)
    = shapeCast S2048x128x256 (m ((c : Thread nD τ).loc main_arg1)) shapeCasts_S1x2048x128x256_S2048x128x256 := by
  show StableHlo.after hostOps0 (W0 m ρ c) (Proc.devRef .tc main_v18) = _
  after_results
  rfl

theorem V1_v19 (c : Dev nD) : (V1 m ρ c main_v19 : S2048x1x64.Idx → Ideal .f32)
    = shapeCast S2048x1x64 (m ((c : Thread nD τ).loc main_arg2)) shapeCasts_S1x2048x1x64_S2048x1x64 := by
  show StableHlo.after hostOps0 (W0 m ρ c) (Proc.devRef .tc main_v19) = _
  after_results
  rfl

theorem V1_v8 (c : Dev nD) : (V1 m ρ c main_v8 : S2048x1x64.Idx → Ideal .f32)
    = rowsOf (m ((c : Thread nD τ).loc main_arg3)) (m ((c : Thread nD τ).loc main_arg5)) := by
  show StableHlo.after hostOps0 (W0 m ρ c) (Proc.devRef .tc main_v8) = _
  after_results
  rfl

theorem V1_v16 (c : Dev nD) : (V1 m ρ c main_v16 : S2048x1x64.Idx → Ideal .f32)
    = rowsOf (m ((c : Thread nD τ).loc main_arg4)) (m ((c : Thread nD τ).loc main_arg5)) := by
  show StableHlo.after hostOps0 (W0 m ρ c) (Proc.devRef .tc main_v16) = _
  after_results
  rfl

/-! ## The second region's operand arrays: as the first region found them -/

theorem V2_v18 (c : Dev nD) : V2 m ρ c main_v18 = V1 m ρ c main_v18 := W2_of_ne m ρ c main_v18 (by decide)
theorem V2_v19 (c : Dev nD) : V2 m ρ c main_v19 = V1 m ρ c main_v19 := W2_of_ne m ρ c main_v19 (by decide)
theorem V2_v8 (c : Dev nD) : V2 m ρ c main_v8 = V1 m ρ c main_v8 :=
  (W2_arr m ρ c 1).trans (((dat0 (V1 m ρ) c).arrAt_in 1 rfl _).trans (A_eq0 (V1 m ρ) c 1))
theorem V2_v16 (c : Dev nD) : V2 m ρ c main_v16 = V1 m ρ c main_v16 :=
  (W2_arr m ρ c 2).trans (((dat0 (V1 m ρ) c).arrAt_in 2 rfl _).trans (A_eq0 (V1 m ρ) c 2))

/-! ## The regions' output arrays at the last region's exit -/

theorem W3_v20 (c : Dev nD) : (W3 m ρ c (Proc.devRef .tc main_v20) : S2048x128x192.Idx → Ideal .f32)
    = Q0 (V1 m ρ c main_v17) (V1 m ρ c main_v8) (V1 m ρ c main_v16) :=
  (W3_of_ne m ρ c main_v20 (by decide)).trans ((W2_arr m ρ c 3).trans (final0 (V1 m ρ) c))

theorem W3_v21 (c : Dev nD) : (W3 m ρ c (Proc.devRef .tc main_v21) : S2048x2x128x192.Idx → Ideal .f32)
    = KV1 (V1 m ρ c main_v18) (V1 m ρ c main_v19) (V1 m ρ c main_v8) (V1 m ρ c main_v16) := by
  rw [← V2_v18, ← V2_v19, ← V2_v8, ← V2_v16]
  exact (W3_arr m ρ c 4).trans (final1 (V2 m ρ) c)

/-! ## The results -/

theorem W4_v22 (c : Dev nD) : (W4 m ρ c (Proc.devRef .tc main_v22) : S1x2048x128x192.Idx → Ideal .f32)
    = broadcastInDim S1x2048x128x192 ![1, 2, 3] bcast_S2048x128x192_S1x2048x128x192_1_2_3 (W3 m ρ c (Proc.devRef .tc main_v20)) := by
  show StableHlo.after hostOps2 (W3 m ρ c) (Proc.devRef .tc main_v22) = _
  after_results

theorem W4_v23 (c : Dev nD) : (W4 m ρ c (Proc.devRef .tc main_v23) : S1x2048x2x128x192.Idx → Ideal .f32)
    = broadcastInDim S1x2048x2x128x192 ![1, 2, 3, 4] bcast_S2048x2x128x192_S1x2048x2x128x192_1_2_3_4 (W3 m ρ c (Proc.devRef .tc main_v21)) := by
  show StableHlo.after hostOps2 (W3 m ρ c) (Proc.devRef .tc main_v23) = _
  after_results

/-- The query result is `qOut` of the arguments. -/
theorem result_q (c : Dev nD) : (W4 m ρ c (Proc.devRef .tc main_v22) : S1x2048x128x192.Idx → Ideal .f32)
    = qOut (m ((c : Thread nD τ).loc main_arg0)) (m ((c : Thread nD τ).loc main_arg3))
        (m ((c : Thread nD τ).loc main_arg4)) (m ((c : Thread nD τ).loc main_arg5)) := by
  rw [W4_v22, W3_v20, V1_v17, V1_v8, V1_v16]
  funext i
  obtain ⟨z, s, h, d, rfl⟩ : ∃ (z : Fin 1) (s : Fin 2048) (h : Fin 128) (d : Fin 192), i = ix4 z s h d :=
    ⟨i 0, i 1, i 2, i 3, eq_ix4 i⟩
  rw [bcast_lead4 _ _ z s h d]
  unfold Q0 qOut
  simp only [cast_drop_lead4, rowsOf_apply]

/-- The packed key/value result is `kvOut` of the arguments. -/
theorem result_kv (c : Dev nD) : (W4 m ρ c (Proc.devRef .tc main_v23) : S1x2048x2x128x192.Idx → Ideal .f32)
    = kvOut (m ((c : Thread nD τ).loc main_arg1)) (m ((c : Thread nD τ).loc main_arg2))
        (m ((c : Thread nD τ).loc main_arg3)) (m ((c : Thread nD τ).loc main_arg4)) (m ((c : Thread nD τ).loc main_arg5)) := by
  rw [W4_v23, W3_v21, V1_v18, V1_v19, V1_v8, V1_v16]
  funext i
  obtain ⟨z, s, j, h, d, rfl⟩ : ∃ (z : Fin 1) (s : Fin 2048) (j : Fin 2) (h : Fin 128) (d : Fin 192), i = ix5 z s j h d :=
    ⟨i 0, i 1, i 2, i 3, i 4, eq_ix5 i⟩
  rw [bcast_lead5 _ _ z s j h d]
  unfold KV1 kvOut
  simp only [cast_drop_lead4, rowsOf_apply]

/-- The idealized kernel program's run with both results at their functions of the arguments. -/
theorem run : θ_run defs (onTc (τ := τ) (main (F := Ideal))) ⟨m, fun _ => 0, ρ⟩ (fun r => ∀ c : Dev nD,
      r.2.mem ((c.tc : Thread nD τ).loc main_v22)
        = qOut (m ((c : Thread nD τ).loc main_arg0)) (m ((c : Thread nD τ).loc main_arg3))
            (m ((c : Thread nD τ).loc main_arg4)) (m ((c : Thread nD τ).loc main_arg5))
      ∧ r.2.mem ((c.tc : Thread nD τ).loc main_v23)
        = kvOut (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_q m ρ c), (h c).2.1.trans (result_kv m ρ c), (h c).2.2⟩)
    (Cert.KernelIdeal.RunNamed.run_named m ρ)

end Cert.KernelIdeal.Value

end
-- ==== Proof.LibHostIx.lean ====
import proofs.«163984_j61521111548175_1_alg».proof.Proof.LibLayoutIx
import Idealize.ShloMosaic.Lib.KernelVsHost

/-!
Host layout operations of ranks two to five read at an index written out by its coordinates: a
`broadcast_in_dim` that inserts a unit axis in position 2 or copies along one, a scalar broadcast, and a `pad`
behind the last axis.
-/

namespace Idealize.ShloMosaic.LayoutIx

open Idealize.ShloMosaic Idealize.ShloMosaic.ValueIdx

variable {α : Type}

/-- A scalar broadcast reads the scalar. -/
theorem bcast_scalar {t : Shape} (x : (⟨0, ![]⟩ : Shape).Idx → α)
    (h : (⟨0, ![]⟩ : Shape).BroadcastsInDim t ![]) (i : t.Idx) :
    broadcastInDim t ![] h x i = x ix0 :=
  broadcastInDim_apply _ h x i ix0 fun a => a.elim0

/-- `[n0, n1] → [n0, n1, 1]` along `dims = [0, 1]`. -/
theorem bcast_ins2_3 {n0 n1 : Nat} (x : (⟨2, ![n0, n1]⟩ : Shape).Idx → α)
    (h : (⟨2, ![n0, n1]⟩ : Shape).BroadcastsInDim ⟨3, ![n0, n1, 1]⟩ ![0, 1]) (a : Fin n0) (b : Fin n1) (z : Fin 1) :
    broadcastInDim ⟨3, ![n0, n1, 1]⟩ ![0, 1] h x (ix3 a b z) = x (ix2 a b) :=
  broadcastInDim_apply _ h x _ _ fun i => match i with
    | ⟨0, _⟩ => val_eq_ite a
    | ⟨1, _⟩ => val_eq_ite b

/-- `[n0, n1, n3] → [n0, n1, 1, n3]` along `dims = [0, 1, 3]`. -/
theorem bcast_ins2_4 {n0 n1 n3 : Nat} (x : (⟨3, ![n0, n1, n3]⟩ : Shape).Idx → α)
    (h : (⟨3, ![n0, n1, n3]⟩ : Shape).BroadcastsInDim ⟨4, ![n0, n1, 1, n3]⟩ ![0, 1, 3])
    (a : Fin n0) (b : Fin n1) (z : Fin 1) (d : Fin n3) :
    broadcastInDim ⟨4, ![n0, n1, 1, n3]⟩ ![0, 1, 3] h x (ix4 a b z d) = x (ix3 a b d) :=
  broadcastInDim_apply _ h x _ _ fun i => match i with
    | ⟨0, _⟩ => val_eq_ite a
    | ⟨1, _⟩ => val_eq_ite b
    | ⟨2, _⟩ => val_eq_ite d

/-- `[n0, n1, n3, n4] → [n0, n1, 1, n3, n4]` along `dims = [0, 1, 3, 4]`. -/
theorem bcast_ins2_5 {n0 n1 n3 n4 : Nat} (x : (⟨4, ![n0, n1, n3, n4]⟩ : Shape).Idx → α)
    (h : (⟨4, ![n0, n1, n3, n4]⟩ : Shape).BroadcastsInDim ⟨5, ![n0, n1, 1, n3, n4]⟩ ![0, 1, 3, 4])
    (a : Fin n0) (b : Fin n1) (z : Fin 1) (c : Fin n3) (d : Fin n4) :
    broadcastInDim ⟨5, ![n0, n1, 1, n3, n4]⟩ ![0, 1, 3, 4] h x (ix5 a b z c d) = x (ix4 a b c d) :=
  broadcastInDim_apply _ h x _ _ fun i => match i with
    | ⟨0, _⟩ => val_eq_ite a
    | ⟨1, _⟩ => val_eq_ite b
    | ⟨2, _⟩ => val_eq_ite c
    | ⟨3, _⟩ => val_eq_ite d

/-- `[n0, n1, 1, n3] → [n0, n1, n2, n3]` along `dims = [0, 1, 2, 3]`: a row copied along axis 2. -/
theorem bcast_along2_4 {n0 n1 n2 n3 : Nat} (x : (⟨4, ![n0, n1, 1, n3]⟩ : Shape).Idx → α)
    (h : (⟨4, ![n0, n1, 1, n3]⟩ : Shape).BroadcastsInDim ⟨4, ![n0, n1, n2, n3]⟩ ![0, 1, 2, 3])
    (a : Fin n0) (b : Fin n1) (c : Fin n2) (d : Fin n3) :
    broadcastInDim ⟨4, ![n0, n1, n2, n3]⟩ ![0, 1, 2, 3] h x (ix4 a b c d) = x (ix4 a b 0 d) :=
  broadcastInDim_apply _ h x _ _ fun i => match i with
    | ⟨0, _⟩ => val_eq_ite a
    | ⟨1, _⟩ => val_eq_ite b
    | ⟨2, _⟩ => (if_pos rfl).symm
    | ⟨3, _⟩ => val_eq_ite d

/-- A rank-4 array padded behind its last axis, read inside the operand. -/
theorem pad_last4_inside {n0 n1 n2 k hi K : Nat} (x : (⟨4, ![n0, n1, n2, k]⟩ : Shape).Idx → α) {u : Shape} (v : u.Idx → α)
    (h : (⟨4, ![n0, n1, n2, k]⟩ : Shape).Pads ![0, 0, 0, 0] ![0, 0, 0, hi] ![0, 0, 0, 0] ⟨4, ![n0, n1, n2, K]⟩)
    (hu : 0 < u.numel) (a : Fin n0) (b : Fin n1) (c : Fin n2) (d : Fin K) (d' : Fin k) (hd : d.val = d'.val) :
    pad ⟨4, ![n0, n1, n2, K]⟩ ![0, 0, 0, 0] ![0, 0, 0, hi] ![0, 0, 0, 0] x v h hu (ix4 a b c d) = x (ix4 a b c d') :=
  pad_apply_of_inside _ _ _ x v h hu _ _ fun i => match i with
    | ⟨0, _⟩ => by show a.val = 0 + a.val * (0 + 1); omega
    | ⟨1, _⟩ => by show b.val = 0 + b.val * (0 + 1); omega
    | ⟨2, _⟩ => by show c.val = 0 + c.val * (0 + 1); omega
    | ⟨3, _⟩ => by show d.val = 0 + d'.val * (0 + 1); omega

/-- A rank-4 array padded behind its last axis, read in the padding. -/
theorem pad_last4_outside {n0 n1 n2 k hi K : Nat} (x : (⟨4, ![n0, n1, n2, k]⟩ : Shape).Idx → α) {u : Shape} (v : u.Idx → α)
    (h : (⟨4, ![n0, n1, n2, k]⟩ : Shape).Pads ![0, 0, 0, 0] ![0, 0, 0, hi] ![0, 0, 0, 0] ⟨4, ![n0, n1, n2, K]⟩)
    (hu : 0 < u.numel) (a : Fin n0) (b : Fin n1) (c : Fin n2) (d : Fin K) (hd : k ≤ d.val) :
    pad ⟨4, ![n0, n1, n2, K]⟩ ![0, 0, 0, 0] ![0, 0, 0, hi] ![0, 0, 0, 0] x v h hu (ix4 a b c d) = v (Shape.Idx.first hu) :=
  pad_apply_of_not_inside _ _ _ x v h hu _ 3 (by
    show ¬(0 ≤ d.val ∧ (d.val - 0) % (0 + 1) = 0 ∧ (d.val - 0) / (0 + 1) < k)
    simp only [Nat.sub_zero, Nat.zero_add, Nat.div_one]
    omega)

end Idealize.ShloMosaic.LayoutIx
-- ==== Proof.RefRows.lean ====
import proofs.«163984_j61521111548175_1_alg».proof.Proof.Gen.ReferenceIdeal.Read
import proofs.«163984_j61521111548175_1_alg».proof.Proof.LibHostIx
import proofs.«163984_j61521111548175_1_alg».proof.Proof.RopeSpec
import Idealize.ShloMosaic.PureOps.Ideal

/-!
The reference's gathered tables: for each of the 2048 sequence rows the table row its position selects, with a
unit head axis. Read at `(0, s, 0, e)` a gathered table is `tblRow` of the table at row `s`.
-/

noncomputable section

namespace Cert.ReferenceIdeal.RefValue

open Cert.ReferenceIdeal Cert.ReferenceIdeal.Gen Cert.ReferenceIdeal.Read Idealize.ShloMosaic
open Idealize.ShloMosaic.ValueIdx Idealize.ShloMosaic.LayoutIx Cert.Rope

/-- A row gather read at `(z, s, e)`: the table at the row the start index `idx[z, s, 0]` names, read signed and
    clamped into the table, and at feature `e`. -/
theorem gather_rows_apply {α : Type} (tab : S2048x64.Idx → α) (idx : IVec S1x2048x1 32) (z : Fin 1) (s : Fin 2048) (e : Fin 64) :
    Host.gather gather_S2048x64_S1x2048x1_S1x2048x64_2_0_n_n_0_2_164 tab idx (ix3 z s e)
      = tab (ix2 ⟨min (idx (ix3 z s 0)).toInt.toNat 2047, by omega⟩ e) := by
  unfold Host.gather
  congr 1
  funext a
  refine Fin.ext ?_
  match a with
  | ⟨0, _⟩ =>
    show gather_S2048x64_S1x2048x1_S1x2048x64_2_0_n_n_0_2_164.start (ix3 z s e) idx 0
        + gather_S2048x64_S1x2048x1_S1x2048x64_2_0_n_n_0_2_164.batchCoord (ix3 z s e) 0
        + gather_S2048x64_S1x2048x1_S1x2048x64_2_0_n_n_0_2_164.offCoord (ix3 z s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2048x64_S1x2048x1_S1x2048x64_2_0_n_n_0_2_164.startIndexMap from List.mem_singleton.mpr rfl)]
    have hsi : gather_S2048x64_S1x2048x1_S1x2048x64_2_0_n_n_0_2_164.siIdx (ix3 z s e)
        ⟨List.idxOf (0 : Fin 2) gather_S2048x64_S1x2048x1_S1x2048x64_2_0_n_n_0_2_164.startIndexMap,
          List.idxOf_lt_length_iff.2 (List.mem_singleton.mpr rfl)⟩ = ix3 z s 0 := by
      funext b; refine Fin.ext ?_
      match b with
      | ⟨0, _⟩ => rfl
      | ⟨1, _⟩ => rfl
      | ⟨2, _⟩ => rfl
    rw [hsi]
    rfl
  | ⟨1, _⟩ =>
    show gather_S2048x64_S1x2048x1_S1x2048x64_2_0_n_n_0_2_164.start (ix3 z s e) idx 1
        + gather_S2048x64_S1x2048x1_S1x2048x64_2_0_n_n_0_2_164.batchCoord (ix3 z s e) 1
        + gather_S2048x64_S1x2048x1_S1x2048x64_2_0_n_n_0_2_164.offCoord (ix3 z s e) 1 = e.val
    rw [GatherDims.batchCoord_eq_zero _ _ _ List.not_mem_nil]
    unfold GatherDims.start
    rw [dif_neg (show (1 : Fin 2) ∉ gather_S2048x64_S1x2048x1_S1x2048x64_2_0_n_n_0_2_164.startIndexMap from by decide)]
    simp only [Nat.add_zero, Nat.zero_add]
    rfl

/-- The normalised position of row `s`. -/
theorem norm_apply (x5 : S1x2048.Idx → BitVec 32) (s : Fin 2048) :
    val_main_v4 (F := Ideal) x5 (ix2 0 s) = normPos (x5 (ix2 0 s)) := by
  rw [val_main_v4_apply, val_main_v1_apply, val_main_v3_apply, val_main_v0_apply, val_main_v2_apply]
  rfl

/-- Reading the first position vector's gather. -/
theorem rows_cos (x3 : S2048x64.Idx → Ideal .f32) (x5 : S1x2048.Idx → BitVec 32) (s : Fin 2048) (z' : Fin 1) (e : Fin 64) :
    val_main_v7 (F := Ideal) x3 x5 (ix4 0 s z' e) = tblRow x3 x5 s e := by
  unfold val_main_v7 val_main_v6 val_main_v5 tblRow rowOf
  rw [bcast_ins2_4 _ _ 0 s z' e, gather_rows_apply]
  have hn : broadcastInDim S1x2048x1 ![0, 1] bcast_S1x2048_S1x2048x1_0_1 (val_main_v4 (F := Ideal) x5) (ix3 0 s 0)
      = normPos (x5 (ix2 0 s)) := by
    rw [bcast_ins2_3 _ _ 0 s 0, norm_apply]
  simp only [hn]

/-- The second position normalisation, spelt again by the program, is the first. -/
theorem norm_apply' (x5 : S1x2048.Idx → BitVec 32) (s : Fin 2048) :
    val_main_v12 (F := Ideal) x5 (ix2 0 s) = normPos (x5 (ix2 0 s)) := by
  rw [val_main_v12_apply, val_main_v9_apply, val_main_v11_apply, val_main_v8_apply, val_main_v10_apply]
  rfl

theorem rows_sin (x4 : S2048x64.Idx → Ideal .f32) (x5 : S1x2048.Idx → BitVec 32) (s : Fin 2048) (z' : Fin 1) (e : Fin 64) :
    val_main_v15 (F := Ideal) x4 x5 (ix4 0 s z' e) = tblRow x4 x5 s e := by
  unfold val_main_v15 val_main_v14 val_main_v13 tblRow rowOf
  rw [bcast_ins2_4 _ _ 0 s z' e, gather_rows_apply]
  have hn : broadcastInDim S1x2048x1 ![0, 1] bcast_S1x2048_S1x2048x1_0_1 (val_main_v12 (F := Ideal) x5) (ix3 0 s 0)
      = normPos (x5 (ix2 0 s)) := by
    rw [bcast_ins2_3 _ _ 0 s 0, norm_apply']
  simp only [hn]

end Cert.ReferenceIdeal.RefValue

end
-- ==== Proof.RopeRotHost.lean ====
import proofs.«163984_j61521111548175_1_alg».proof.Proof.LibLayoutIx
import proofs.«163984_j61521111548175_1_alg».proof.Proof.RopeSpec
import Idealize.ShloMosaic.PureOps.Ideal.Laws

/-!
The half-rotation as a host program spells it on a rank-4 array whose last axis has the 64 rotated features: the
upper 32 features negated, joined in front of the lower 32. Read at `(a, b, c, e)` it is `rotHalf` of the row
`(a, b, c, ·)` at `e`.
-/

noncomputable section

namespace Cert.Rope

open Idealize.ShloMosaic Idealize.ShloMosaic.ValueIdx Idealize.ShloMosaic.LayoutIx

theorem rot_host_ix4 {n0 n1 n2 : Nat} (y : (⟨4, ![n0, n1, n2, 64]⟩ : Shape).Idx → Ideal .f32)
    (hs1 : (⟨4, ![n0, n1, n2, 64]⟩ : Shape).Slices ![0, 0, 0, 32] ⟨4, ![n0, n1, n2, 32]⟩)
    (hs0 : (⟨4, ![n0, n1, n2, 64]⟩ : Shape).Slices ![0, 0, 0, 0] ⟨4, ![n0, n1, n2, 32]⟩)
    (hc : Shape.Concatenates [(⟨4, ![n0, n1, n2, 32]⟩ : Shape), ⟨4, ![n0, n1, n2, 32]⟩] ⟨4, ![n0, n1, n2, 64]⟩ 3)
    (a : Fin n0) (b : Fin n1) (c : Fin n2) (e : Fin 64) :
    concatenate ⟨4, ![n0, n1, n2, 64]⟩ 3
        [⟨⟨4, ![n0, n1, n2, 32]⟩, Host.negf (extractStridedSlice ⟨4, ![n0, n1, n2, 32]⟩ ![0, 0, 0, 32] y hs1)⟩,
         ⟨⟨4, ![n0, n1, n2, 32]⟩, extractStridedSlice ⟨4, ![n0, n1, n2, 32]⟩ ![0, 0, 0, 0] y hs0⟩] hc (ix4 a b c e)
      = rotHalf (fun e => y (ix4 a b c e)) e := by
  unfold rotHalf
  by_cases he : e.val < 32
  · rw [dif_pos he]
    refine (cat_last4_left _ _ hc a b c e ⟨e.val, he⟩ rfl).trans ?_
    show -(extractStridedSlice ⟨4, ![n0, n1, n2, 32]⟩ ![0, 0, 0, 32] y hs1 (ix4 a b c ⟨e.val, he⟩)) = _
    rw [slice_ix4 y hs1 a b c ⟨e.val, he⟩ a b c ⟨e.val + 32, by omega⟩ (by omega) (by omega) (by omega)
      (by show e.val + 32 = 32 + e.val; omega)]
  · rw [dif_neg he]
    refine (cat_last4_right _ _ hc a b c e ⟨e.val - 32, by omega⟩ (by show e.val - 32 + 32 = e.val; omega)).trans ?_
    exact slice_ix4 y hs0 a b c ⟨e.val - 32, by omega⟩ a b c ⟨e.val - 32, by omega⟩ (by omega) (by omega) (by omega)
      (by show e.val - 32 = 0 + (e.val - 32); omega)

end Cert.Rope

end
-- ==== Proof.RefQ.lean ====
import proofs.«163984_j61521111548175_1_alg».proof.Proof.RefRows
import proofs.«163984_j61521111548175_1_alg».proof.Proof.RopeRotHost

/-!
The reference's query result is `qOut` of the arguments: features 0..127 are sliced from the query as they are, and
features 128..191 are the rotated slice — the slice times the position's cosine row plus its half-rotation times
the sine row, both rows copied along the 128 heads.
-/

noncomputable section

namespace Cert.ReferenceIdeal.RefValue

open Cert.ReferenceIdeal Cert.ReferenceIdeal.Gen Cert.ReferenceIdeal.Read Idealize.ShloMosaic
open Idealize.ShloMosaic.ValueIdx Idealize.ShloMosaic.LayoutIx Cert.Rope

theorem ref_q (x0 : S1x2048x128x192.Idx → Ideal .f32) (x3 x4 : S2048x64.Idx → Ideal .f32) (x5 : S1x2048.Idx → BitVec 32) :
    val_main_v27 (F := Ideal) x0 x3 x4 x5 = qOut x0 x3 x4 x5 := by
  funext i
  obtain ⟨z, s, h, d, rfl⟩ : ∃ (z : Fin 1) (s : Fin 2048) (h : Fin 128) (d : Fin 192), i = ix4 z s h d :=
    ⟨i 0, i 1, i 2, i 3, eq_ix4 i⟩
  obtain rfl : z = 0 := Subsingleton.elim _ _
  show _ = qRow (fun d' => x0 (ix4 0 s h d')) (tblRow x3 x5 s) (tblRow x4 x5 s) d
  have hrow : ∀ e : Fin 64, val_main_v17 (F := Ideal) x0 (ix4 0 s h e) = x0 (ix4 0 s h ⟨128 + e.val, by omega⟩) := fun e => by
    unfold val_main_v17
    exact slice_ix4 x0 _ 0 s h e 0 s h ⟨128 + e.val, by omega⟩ (by omega) (by omega) (by omega) rfl
  unfold val_main_v27 qRow
  by_cases hd : d.val < 128
  · rw [dif_pos hd]
    refine (cat_last4_left _ _ _ 0 s h d ⟨d.val, hd⟩ rfl).trans ?_
    unfold val_main_v16
    exact slice_ix4 x0 _ 0 s h ⟨d.val, hd⟩ 0 s h d (by omega) (by omega) (by omega) (by show d.val = 0 + d.val; omega)
  · rw [dif_neg hd]
    refine (cat_last4_right _ _ _ 0 s h d ⟨d.val - 128, by omega⟩ (by show d.val - 128 + 128 = d.val; omega)).trans ?_
    unfold val_main_v26 val_main_v19 val_main_v25
    rw [addf_apply, mulf_apply, mulf_apply]
    unfold val_main_v18 val_main_v24
    rw [bcast_along2_4 _ _ 0 s h, bcast_along2_4 _ _ 0 s h, rows_cos, rows_sin]
    unfold val_main_v23 val_main_v21 val_main_v20 val_main_v22
    rw [rot_host_ix4 (val_main_v17 (F := Ideal) x0) _ _ _ 0 s h, hrow]
    unfold roped
    simp only [hrow]

end Cert.ReferenceIdeal.RefValue

end
-- ==== Proof.RefKV.lean ====
import proofs.«163984_j61521111548175_1_alg».proof.Proof.RefRows
import proofs.«163984_j61521111548175_1_alg».proof.Proof.RopeRotHost
import Idealize.ShloMosaic.Lib.KernelVsHost

/-!
The reference's packed key/value result is `kvOut` of the arguments. Slab 0 is the key: features 0..127 of the kv
row, then the rotated shared key row copied along the 128 heads. Slab 1 is the value: features 128..255 of the kv
row, padded behind with 64 copies of the integer zero converted to a float, which is the real zero.
-/

noncomputable section

namespace Cert.ReferenceIdeal.RefValue

open Cert.ReferenceIdeal Cert.ReferenceIdeal.Gen Cert.ReferenceIdeal.Read Idealize.ShloMosaic
open Idealize.ShloMosaic.ValueIdx Idealize.ShloMosaic.LayoutIx Cert.Rope

/-- The rotated shared key row of sequence row `s`. -/
theorem ref_kpe (x2 : S1x2048x1x64.Idx → Ideal .f32) (x3 x4 : S2048x64.Idx → Ideal .f32) (x5 : S1x2048.Idx → BitVec 32)
    (s : Fin 2048) (e : Fin 64) :
    val_main_v36 (F := Ideal) x2 x3 x4 x5 (ix4 0 s 0 e)
      = roped (fun e => x2 (ix4 0 s 0 e)) (tblRow x3 x5 s) (tblRow x4 x5 s) e := by
  unfold val_main_v36 val_main_v30 val_main_v35
  rw [addf_apply, mulf_apply, mulf_apply, rows_cos, rows_sin]
  unfold val_main_v34 val_main_v32 val_main_v31 val_main_v33
  rw [rot_host_ix4 x2 _ _ _ 0 s 0]
  rfl

/-- The key slab. -/
theorem ref_key (x1 : S1x2048x128x256.Idx → Ideal .f32) (x2 : S1x2048x1x64.Idx → Ideal .f32)
    (x3 x4 : S2048x64.Idx → Ideal .f32) (x5 : S1x2048.Idx → BitVec 32) (s : Fin 2048) (h : Fin 128) (d : Fin 192) :
    val_main_v38 (F := Ideal) x1 x2 x3 x4 x5 (ix4 0 s h d)
      = if hd : d.val < 128 then x1 (ix4 0 s h ⟨d.val, by omega⟩)
        else roped (fun e => x2 (ix4 0 s 0 e)) (tblRow x3 x5 s) (tblRow x4 x5 s) ⟨d.val - 128, by omega⟩ := by
  unfold val_main_v38
  by_cases hd : d.val < 128
  · rw [dif_pos hd]
    refine (cat_last4_left _ _ _ 0 s h d ⟨d.val, hd⟩ rfl).trans ?_
    unfold val_main_v28
    exact slice_ix4 x1 _ 0 s h ⟨d.val, hd⟩ 0 s h ⟨d.val, by omega⟩ (by omega) (by omega) (by omega) (by show d.val = 0 + d.val; omega)
  · rw [dif_neg hd]
    refine (cat_last4_right _ _ _ 0 s h d ⟨d.val - 128, by omega⟩ (by show d.val - 128 + 128 = d.val; omega)).trans ?_
    unfold val_main_v37
    rw [bcast_along2_4 _ _ 0 s h, ref_kpe]

/-- The value slab. -/
theorem ref_value (x1 : S1x2048x128x256.Idx → Ideal .f32) (s : Fin 2048) (h : Fin 128) (d : Fin 192) :
    val_main_v39 (F := Ideal) x1 (ix4 0 s h d)
      = if hd : d.val < 128 then x1 (ix4 0 s h ⟨128 + d.val, by omega⟩) else 0 := by
  unfold val_main_v39
  by_cases hd : d.val < 128
  · rw [dif_pos hd]
    refine (pad_last4_inside _ _ _ _ 0 s h d ⟨d.val, hd⟩ rfl).trans ?_
    unfold val_main_v29
    exact slice_ix4 x1 _ 0 s h ⟨d.val, hd⟩ 0 s h ⟨128 + d.val, by omega⟩ (by omega) (by omega) (by omega) rfl
  · rw [dif_neg hd]
    refine (pad_last4_outside _ _ _ _ 0 s h d (by omega)).trans ?_
    exact sitofp_zero

theorem ref_kv (x1 : S1x2048x128x256.Idx → Ideal .f32) (x2 : S1x2048x1x64.Idx → Ideal .f32)
    (x3 x4 : S2048x64.Idx → Ideal .f32) (x5 : S1x2048.Idx → BitVec 32) :
    val_main_v42 (F := Ideal) x1 x2 x3 x4 x5 = kvOut x1 x2 x3 x4 x5 := by
  funext i
  obtain ⟨z, s, j, h, d, rfl⟩ : ∃ (z : Fin 1) (s : Fin 2048) (j : Fin 2) (h : Fin 128) (d : Fin 192), i = ix5 z s j h d :=
    ⟨i 0, i 1, i 2, i 3, i 4, eq_ix5 i⟩
  obtain rfl : z = 0 := Subsingleton.elim _ _
  show _ = kvRow (fun d' => x1 (ix4 0 s h d')) (fun e => x2 (ix4 0 s 0 e)) (tblRow x3 x5 s) (tblRow x4 x5 s) j d
  unfold val_main_v42 kvRow
  by_cases hj : j.val = 0
  · rw [if_pos hj]
    refine (stack2_ix5_left _ _ _ 0 s j h d hj).trans ?_
    unfold val_main_v40
    rw [bcast_ins2_5 _ _ 0 s 0 h d, ref_key]
  · rw [if_neg hj]
    have hj1 : j.val = 1 := by have := j.isLt; omega
    refine (stack2_ix5_right _ _ _ 0 s j h d hj1).trans ?_
    unfold val_main_v41
    rw [bcast_ins2_5 _ _ 0 s 0 h d, ref_value]

end Cert.ReferenceIdeal.RefValue

end
-- ==== Proof.lean ====
/-
  Rotary position embedding of the queries and of the shared key, and the packing of keys and values, in two
  pipelined kernels against the jnp reference, over the extended reals.

  Both programs gather, for each of the 2048 sequence rows, the row of the cosine and of the sine table that the row's
  position selects (a negative position counted from the end, the index clamped into the table). The query result
  keeps features 0..127 of every row and replaces features 128..191, the vector `x`, by
  `x * cos + rot x * sin`, where `rot x` is the upper half of `x` negated in front of its lower half. The packed
  result has, per row and head, the key — features 0..127 of the kv row, then the rotated shared key row — and the
  value — features 128..255 of the kv row, then 64 zeros.

  The first kernel computes the query result 32 rows at a time, the second the packed result 16 rows at a time; the
  reference computes both on whole arrays. Index by index the two programs apply the same multiplications and the same
  addition to the same entries, so no law of arithmetic is needed beyond `0 - x = -x` (the kernels' negation) and
  "the integer zero converted is zero" (the reference's padding value), both true of every extended real. The
  finiteness precondition is not used.
-/
import proofs.«163984_j61521111548175_1_alg».proof.Defs
import proofs.«163984_j61521111548175_1_alg».proof.Proof.Gen.Kernel
import proofs.«163984_j61521111548175_1_alg».proof.Proof.Gen.Kernel.Frame
import proofs.«163984_j61521111548175_1_alg».proof.Proof.Gen.KernelIdeal
import proofs.«163984_j61521111548175_1_alg».proof.Proof.Gen.KernelIdeal.Frame
import proofs.«163984_j61521111548175_1_alg».proof.Proof.Gen.ReferenceIdeal
import proofs.«163984_j61521111548175_1_alg».proof.Proof.Gen.ReferenceIdeal.Run
import proofs.«163984_j61521111548175_1_alg».proof.Proof.Gen.ReferenceIdeal.Read
import proofs.«163984_j61521111548175_1_alg».proof.Proof.Gen.Pre_finite_inputs
import proofs.«163984_j61521111548175_1_alg».proof.Proof.KValue
import proofs.«163984_j61521111548175_1_alg».proof.Proof.RefQ
import proofs.«163984_j61521111548175_1_alg».proof.Proof.RefKV
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the query result at `qOut` and the packed result at `kvOut` of arguments that agree. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5⟩ := hagree c
    rw [(h c).1, Cert.ReferenceIdeal.Read.val_main_v27_eq, Cert.ReferenceIdeal.RefValue.ref_q, a0, a3, a4, a5]
  · obtain ⟨a0, a1, a2, a3, a4, a5⟩ := hagree c
    rw [(h c).2.1, Cert.ReferenceIdeal.Read.val_main_v42_eq, Cert.ReferenceIdeal.RefValue.ref_kv, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
